-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S4096x2048 .f32) (main_arg5 : FVec F S2048 .f32) (main_arg6 : FVec F S4096x2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S2048 .f32) (main_arg4 : FVec F S4096x2048 .f32) (main_arg5 : FVec F S2048 .f32) (main_arg6 : FVec F S4096x2048 .f32) (main_arg7 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048 : Shape := ⟨1, ![2048]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x2048 : Shape := ⟨2, ![1024, 2048]⟩
abbrev S1x2048 : Shape := ⟨2, ![1, 2048]⟩
abbrev S512x2048 : Shape := ⟨2, ![512, 2048]⟩
abbrev S256x512 : Shape := ⟨2, ![256, 512]⟩
abbrev S256x2048 : Shape := ⟨2, ![256, 2048]⟩

abbrev nBuf : Space → Nat
  | .hbm => 23
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S4096x4096, .f32⟩
  | .hbm, ⟨9, _⟩ => ⟨S4096x4096, .bf16⟩
  | .hbm, ⟨10, _⟩ => ⟨S4096x4096, .f32⟩
  | .hbm, ⟨11, _⟩ => ⟨S4096x4096, .bf16⟩
  | .hbm, ⟨12, _⟩ => ⟨S4096, .f32⟩
  | .hbm, ⟨13, _⟩ => ⟨S1x4096, .f32⟩
  | .hbm, ⟨14, _⟩ => ⟨S4096x4096, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4096, .f32⟩
  | .hbm, ⟨19, _⟩ => ⟨S4096x4096, .bf16⟩
  | .hbm, ⟨20, _⟩ => ⟨S4096x2048, .bf16⟩
  | .hbm, ⟨21, _⟩ => ⟨S1x2048, .f32⟩
  | .hbm, ⟨22, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S256x512, .bf16⟩
  | .local _ .vmem, ⟨10, _⟩ => ⟨S256x512, .bf16⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  concatenates_S4096x2048_S4096x2048_S4096x4096_d1 : Shape.Concatenates [S4096x2048, S4096x2048] S4096x4096 1
  bitsLt_bf16_f32 : FTy.bits .bf16 < FTy.bits .f32
  concatenates_S2048_S2048_S4096_d0 : Shape.Concatenates [S2048, S2048] S4096 0
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S4096x4096_S4096x2048_0_0 : S4096x4096.Slices ![0, 0] S4096x2048
  slices_S4096x4096_S4096x2048_0_2048 : S4096x4096.Slices ![0, 2048] S4096x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x2048_S256x2048 : S1x2048.Broadcasts S256x2048
  dot_S512x1024_S1024x2048_S512x2048_1_0_0_1_n_n_wf : DotDims.WF S512x1024 S1024x2048 S512x2048 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .bf16 = 32 ∨ (Rect.block (s := S4096x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .bf16 = 32 ∨ (Rect.block (s := S4096x4096) S256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .bf16 = 32 ∨ (Rect.block (s := S4096x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .f32 = 32 ∨ (Rect.block (s := S4096x2048) S256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S4096x2048.size a
  hwx1_4 : ∀ i : grid1.Coords, EltTy.bits .f32 = 32 ∨ (Rect.block (s := S4096x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S4096x2048.size a
  hwx1_5 : ∀ i : grid1.Coords, EltTy.bits .f32 = 32 ∨ (Rect.block (s := S4096x2048) S256x2048.size (cc1_transform_5 i) (hinb1_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S2048x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S2048x2048, .f32⟩
  | .hbm, ⟨41, _⟩ => ⟨S4096x2048, .f32⟩
  | .hbm, ⟨42, _⟩ => ⟨S4096x2048, .f32⟩
  | .hbm, ⟨43, _⟩ => ⟨S2048x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  slices_S4096x2048_S2048x2048_0_0 : S4096x2048.Slices ![0, 0] S2048x2048
  slices_S4096x2048_S2048x2048_2048_0 : S4096x2048.Slices ![2048, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KB.Data.lean ====
import proofs.«107334_j11879879541673_1_alg».proof.Proof.Gen.Kernel.Launch
import proofs.«107334_j11879879541673_1_alg».proof.Proof.Gen.Kernel.Skeleton
import proofs.«107334_j11879879541673_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The two kernel regions' proof data

Region 0 computes, block by block, the gate pre-activations: at grid point `t = (i·2 + j)·4 + k` it adds the
product of the `(i, k)` block of the concatenated input and the `(k, j)` block of the concatenated weights into
an accumulator kept in scratch memory (zeroed when `k = 0`), and when `k = 3` stores the logistic of the
accumulator plus the bias row into the `(i, j)` block of the result.  Region 1 does the same over
`t = i·8 + k` with a hyperbolic tangent and the gate combination at `k = 7`.  Both are stated at a parameter `V`:
the TensorCore's buffer contents when the region is entered. -/

variable (V : (c : Dev nD) → (b : Ref sig .tc) → Buf (Elt F) ((c : Thread nD τ).loc b))

theorem hz2 : (![0, 0] : Fin 2 → Nat) = fun _ => 0 := funext fun a => by fin_cases a <;> rfl

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block, the weight block and the bias row of point `t`, at their literal types. -/
abbrev xblk0 (c : Dev nD) (t : Fin cfg0.N) : Vec F S512x1024 .bf16 := iblk0 V c 0 t
abbrev wblk0 (c : Dev nD) (t : Fin cfg0.N) : Vec F S1024x2048 .bf16 := iblk0 V c 1 t
abbrev bblk0 (c : Dev nD) (t : Fin cfg0.N) : Vec F S1x2048 .f32 := iblk0 V c 2 t

/-- The accumulator after point `n`: the product of the point's blocks added to zero when `n ≡ 0 (mod 4)`
    (a new output block begins), else to what the point before left. -/
def acc0 (c : Dev nD) : (n : ℕ) → n < cfg0.N → Vec F S512x2048 .f32
  | 0, h => k0_pay2 k0_pay1 (xblk0 V c ⟨0, h⟩) (wblk0 V c ⟨0, h⟩)
  | n + 1, h => k0_pay2 (if (n + 1) % 4 = 0 then k0_pay1 else acc0 c n (Nat.lt_of_succ_lt h)) (xblk0 V c ⟨n + 1, h⟩) (wblk0 V c ⟨n + 1, h⟩)

theorem acc0_reset (c : Dev nD) (n : ℕ) (h : n < cfg0.N) (h0 : n % 4 = 0) :
    acc0 V c n h = k0_pay2 k0_pay1 (xblk0 V c ⟨n, h⟩) (wblk0 V c ⟨n, h⟩) := by
  cases n with
  | zero => rfl
  | succ n => rw [acc0, if_pos h0]

theorem acc0_step (c : Dev nD) (n : ℕ) (h : n < cfg0.N) (h0 : ¬n % 4 = 0) :
    acc0 V c n h = k0_pay2 (acc0 V c (n - 1) (Nat.lt_of_le_of_lt (Nat.sub_le _ _) h)) (xblk0 V c ⟨n, h⟩) (wblk0 V c ⟨n, h⟩) := by
  cases n with
  | zero => exact absurd (Nat.zero_mod _) h0
  | succ n => rw [acc0, if_neg h0]; rfl

/-- The scratch accumulator of region 0 as a memref. -/
abbrev scM0 : Memref sig .tc .vmem S512x2048 .f32 := Memref.whole cc0_scratch0

/-- The core's scoped buffers other than region 0's staging buffers and its accumulator, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant of region 0 with the accumulator split off as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

/-- Region 0's invariant before position `n`: at entry the class's; afterwards the accumulator at what the point
    before left, the other scoped buffers at anything, the generator register at some state. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ others0 (F := F) c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ others0 (F := F) c) ∗ (∃ r, prngReg c r)) := by
  cases n with
  | zero => exact absurd rfl hz
  | succ n => rfl

/-- Region 0's proof data on core `c`: the arrays as the region finds them; after the body each input's buffer at
    its block, the result's at the logistic of the accumulator plus the bias row (read only where `k = 3`: elsewhere
    the window is idle and nothing consults it). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (bblk0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) (bblk0 V c t) := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input block, the weight block, the bias row, the state block and the update-gate block of point `t`. -/
abbrev xblk1 (c : Dev nD) (t : Fin cfg1.N) : Vec F S256x512 .bf16 := iblk1 V c 0 t
abbrev wblk1 (c : Dev nD) (t : Fin cfg1.N) : Vec F S512x2048 .bf16 := iblk1 V c 1 t
abbrev bblk1 (c : Dev nD) (t : Fin cfg1.N) : Vec F S1x2048 .f32 := iblk1 V c 2 t
abbrev sblk1 (c : Dev nD) (t : Fin cfg1.N) : Vec F S256x2048 .f32 := iblk1 V c 3 t
abbrev zblk1 (c : Dev nD) (t : Fin cfg1.N) : Vec F S256x2048 .f32 := iblk1 V c 4 t

/-- The accumulator after point `n`: restarted from zero when `n ≡ 0 (mod 8)`. -/
def acc1 (c : Dev nD) : (n : ℕ) → n < cfg1.N → Vec F S256x2048 .f32
  | 0, h => k1_pay2 k1_pay1 (xblk1 V c ⟨0, h⟩) (wblk1 V c ⟨0, h⟩)
  | n + 1, h => k1_pay2 (if (n + 1) % 8 = 0 then k1_pay1 else acc1 c n (Nat.lt_of_succ_lt h)) (xblk1 V c ⟨n + 1, h⟩) (wblk1 V c ⟨n + 1, h⟩)

theorem acc1_reset (c : Dev nD) (n : ℕ) (h : n < cfg1.N) (h0 : n % 8 = 0) :
    acc1 V c n h = k1_pay2 k1_pay1 (xblk1 V c ⟨n, h⟩) (wblk1 V c ⟨n, h⟩) := by
  cases n with
  | zero => rfl
  | succ n => rw [acc1, if_pos h0]

theorem acc1_step (c : Dev nD) (n : ℕ) (h : n < cfg1.N) (h0 : ¬n % 8 = 0) :
    acc1 V c n h = k1_pay2 (acc1 V c (n - 1) (Nat.lt_of_le_of_lt (Nat.sub_le _ _) h)) (xblk1 V c ⟨n, h⟩) (wblk1 V c ⟨n, h⟩) := by
  cases n with
  | zero => exact absurd (Nat.zero_mod _) h0
  | succ n => rw [acc1, if_neg h0]; rfl

/-- The scratch accumulator of region 1 as a memref. -/
abbrev scM1 : Memref sig .tc .vmem S256x2048 .f32 := Memref.whole cc1_scratch0

/-- The core's scoped buffers that are no staging buffer of region 1, each at some contents, but the accumulator
    (the last of them) at `S`. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ S)

/-- The class invariant of region 1 with the accumulator split off (it is listed last among the scoped buffers). -/
theorem PhiA1_eq (c : Dev nD) :
    (Pipeline.ΦA spec1 c : sProp 𝕄)
      = iprop(rest1 (F := F) c (iprop(∃ d, owns (c : Thread nD τ) scM1 fullShare d)) ∗ (∃ r, prngReg c r)) := by
  unfold Pipeline.ΦA rest1; rw [scopedRest1_eq]; simp only [scM1, owns_whole]; try rfl

def Phi1 (c : Dev nD) : (n : ℕ) → n ≤ cfg1.N → sProp 𝕄
  | 0, _ => Pipeline.ΦA spec1 c
  | n + 1, hn => iprop(rest1 (F := F) c (owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1 (F := F) c (owns (c : Thread nD τ) scM1 fullShare (acc1 V c n hn)) ∗ (∃ r, prngReg c r)) := rfl

theorem Phi1_pos (c : Dev nD) (n : ℕ) (h : n ≤ cfg1.N) (hz : n ≠ 0) :
    Phi1 V c n h = iprop(rest1 (F := F) c (owns (c : Thread nD τ) scM1 fullShare (acc1 V c (n - 1) (by omega))) ∗ (∃ r, prngReg c r)) := by
  cases n with
  | zero => exact absurd rfl hz
  | succ n => rfl

/-- Region 1's proof data on core `c`: after the body each input's buffer at its block, the result's at the gate
    combination of the state block, the update-gate block and the hyperbolic tangent of the accumulator plus the bias
    row (read only where `k = 7`). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (bblk1 V c t) (zblk1 V c t) (sblk1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay3 (acc1 V c t.val t.isLt) (bblk1 V c t) (zblk1 V c t) (sblk1 V c t) := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

end Cert.Kernel.Hand

end
-- ==== Proof.KB.Fold.lean ====
import proofs.«107334_j11879879541673_1_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The buffers' contents at each boundary of @main

@main is: host operations, region 0, host operations, region 1. The contents at each boundary are a fold from the
launch memory: a host stretch applies its operations; a region leaves its arrays at what its write-backs make of them
and every other buffer as it found it. -/

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

end Cert.Kernel.Hand

end
-- ==== Proof.KB.R0Body.lean ====
import proofs.«107334_j11879879541673_1_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the kernel body at every grid point

The body branches on `k = t mod 4`: at `k = 0` it first zeroes the accumulator; at every point it adds the
product of the point's blocks to the accumulator; at `k = 3` it stores the logistic of the accumulator plus the
bias row into the result block. Three cases meet the grid: `k = 0`, `k ∈ {1, 2}` and `k = 3`. -/

variable (V : (c : Dev nD) → (b : Ref sig .tc) → Buf (Elt F) ((c : Thread nD τ).loc b))

/-- "The accumulator is zeroed at this point", from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "The result block is stored at this point". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The three inputs are never idle; the result window is idle, and not written back, exactly off `k = 3`. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## Each input's staging buffer holds its block, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body's runs, case by case, on any whole memrefs -/

/-- What one whole-buffer store leaves reads back as its payload, and a whole-buffer load reads the contents. -/
theorem acc_store_eq {sg : RefSig} (v : View sg .tc .vmem S512x2048 .f32) (f : v.ty.Contents (Elt F)) (p : Vec F S512x2048 .f32)
    (L : List (View.Piece (Elt F) S512x2048 .f32)) :
    v.read (Elt F) (v.writes (Elt F) f (⟨Rect.unit (s := S512x2048) ![0, 0] S512x2048.size inb_S512x2048_S512x2048_0_0, p⟩ :: L)) = p := by
  rw [View.read_writes_eq_canon _ _ _ (fun y => ⟨_, List.mem_cons_self, View.mem_set_unit_zero hz2 inb_S512x2048_S512x2048_0_0 y⟩),
    View.canon_cons_unit_zero hz2]

set_option maxHeartbeats 1000000 in
/-- `k ∈ {1, 2}`: the accumulator at `a` ends at `a` plus the product of the blocks; the bias row's and the result's
    buffers are not touched. -/
theorem run0_B (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc0 : ¬cond0_0 i) (hc1 : ¬cond0_1 i)
    (x : Vec F S512x1024 .bf16) (w : Vec F S1024x2048 .bf16) (a : Vec F S512x2048 .f32) (E : Set ℕ) (K : PUnit → sProp 𝕄) :
    iprop(owns (c : Thread nD τ) arg3 fullShare x ∗ owns (c : Thread nD τ) arg4 fullShare w ∗ owns (c : Thread nD τ) arg7 fullShare a
        ∗ (iprop(owns (c : Thread nD τ) arg3 fullShare x ∗ owns (c : Thread nD τ) arg4 fullShare w ∗ owns (c : Thread nD τ) arg7 fullShare (k0_pay2 a x w)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f7, %hf7, H7⟩, Hk⟩
  subst hf3; subst hf4; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  rw [acc_store_eq]
  simp only [View.readAt_eq_ld, View.ld_unit_zero (S := S512x2048) hz2, View.ld_unit_zero (S := S512x1024) hz2, View.ld_unit_zero (S := S1024x2048) hz2]

set_option maxHeartbeats 1000000 in
/-- `k = 0`: whatever the accumulator held, it ends at zero plus the product of the blocks. -/
theorem run0_A (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc0 : cond0_0 i) (hc1 : ¬cond0_1 i)
    (x : Vec F S512x1024 .bf16) (w : Vec F S1024x2048 .bf16) (E : Set ℕ) (K : PUnit → sProp 𝕄) :
    iprop(owns (c : Thread nD τ) arg3 fullShare x ∗ owns (c : Thread nD τ) arg4 fullShare w ∗ (∃ a, owns (c : Thread nD τ) arg7 fullShare a)
        ∗ (iprop(owns (c : Thread nD τ) arg3 fullShare x ∗ owns (c : Thread nD τ) arg4 fullShare w ∗ owns (c : Thread nD τ) arg7 fullShare (k0_pay2 k0_pay1 x w)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%a, %f7, -, H7⟩, Hk⟩
  subst hf3; subst hf4
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  rw [acc_store_eq]
  simp only [View.readCov_unit_zero (S := S512x2048) _ hz2, View.readAt_eq_ld, View.ld_unit_zero (S := S512x2048) hz2, View.ld_unit_zero (S := S512x1024) hz2, View.ld_unit_zero (S := S1024x2048) hz2, View.ld_unit_zero (S := S1x2048) hz2]

set_option maxHeartbeats 1000000 in
/-- `k = 3`: the accumulator is updated as at `k ∈ {1, 2}`, and the result's buffer, whatever it held, ends at the
    logistic of the new accumulator plus the bias row. -/
theorem run0_C (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc0 : ¬cond0_0 i) (hc1 : cond0_1 i)
    (x : Vec F S512x1024 .bf16) (w : Vec F S1024x2048 .bf16) (b : Vec F S1x2048 .f32) (a : Vec F S512x2048 .f32) (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 a x w) b) ∗ owns (c : Thread nD τ) arg7 fullShare (k0_pay2 a x w)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [acc_store_eq]
    simp only [View.readCov_unit_zero (S := S512x2048) _ hz2, View.readAt_eq_ld, View.ld_unit_zero (S := S512x2048) hz2, View.ld_unit_zero (S := S512x1024) hz2, View.ld_unit_zero (S := S1024x2048) hz2, View.ld_unit_zero (S := S1x2048) hz2]
  iexists _; isplitr
  swap; · iexact H7
  ipureintro
  sl_unfold_words
  rw [acc_store_eq]
  simp only [View.readCov_unit_zero (S := S512x2048) _ hz2, View.readAt_eq_ld, View.ld_unit_zero (S := S512x2048) hz2, View.ld_unit_zero (S := S512x1024) hz2, View.ld_unit_zero (S := S1024x2048) hz2, View.ld_unit_zero (S := S1x2048) hz2]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; `t mod 4` says which case the point is in; the
    invariant hands the body the accumulator at what the point before left (at anything at the first point) and takes
    it back at this point's contents; where `k ≠ 3` the result's buffer goes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 64 := lt_of_lt_of_eq t.isLt (show cfg0.N = 64 from N_0)
  by_cases h1 : t.val % 4 = 3
  · have h0 : ¬t.val % 4 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [acc0_step V c t.val t.isLt h0]
    rw [Phi0_castSucc V c t, Phi0_pos V c _ _ hz]
    iintro ⟨⟨⟨HS, Hoth⟩, Hg⟩, Ho, ⟨%d0, H0⟩, ⟨%d1, H1⟩, ⟨%d2, H2⟩, ⟨%d3, H3⟩⟩
    iapply (run0_C c (grid0.coords t) _ _ _ _ _ _ _ _ _ _ (fun h => h0 ((hcond0_0 t).mp h)) ((hcond0_1 t).mpr h1)
      (xblk0 V c t) (wblk0 V c t) (bblk0 V c t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 4 = 0
    · rw [acc0_reset V c t.val t.isLt h0]
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩, H3⟩
        iapply (run0_A c (grid0.coords t) _ _ _ _ (st0_2 t) (hstage0_2 ((cfg0.slots t 2).cast nbuf0_2)) (st0_3 t) (hstage0_3 ((cfg0.slots t 3).cast nbuf0_3)) _ _ ((hcond0_0 t).mpr h0) (fun h => h1 ((hcond0_1 t).mp h))
          (xblk0 V c t) (wblk0 V c t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · rw [Phi0_castSucc V c t, Phi0_pos V c _ _ hz]
        iintro ⟨⟨⟨HS, Hoth⟩, Hg⟩, Ho, ⟨%d0, H0⟩, ⟨%d1, H1⟩, ⟨%d2, H2⟩, H3⟩
        iapply (run0_A c (grid0.coords t) _ _ _ _ (st0_2 t) (hstage0_2 ((cfg0.slots t 2).cast nbuf0_2)) (st0_3 t) (hstage0_3 ((cfg0.slots t 3).cast nbuf0_3)) _ _ ((hcond0_0 t).mpr h0) (fun h => h1 ((hcond0_1 t).mp h))
          (xblk0 V c t) (wblk0 V c t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
    · have hz : t.val ≠ 0 := by omega
      rw [acc0_step V c t.val t.isLt h0]
      rw [Phi0_castSucc V c t, Phi0_pos V c _ _ hz]
      iintro ⟨⟨⟨HS, Hoth⟩, Hg⟩, Ho, ⟨%d0, H0⟩, ⟨%d1, H1⟩, ⟨%d2, H2⟩, H3⟩
      iapply (run0_B c (grid0.coords t) _ _ _ _ (st0_2 t) (hstage0_2 ((cfg0.slots t 2).cast nbuf0_2)) (st0_3 t) (hstage0_3 ((cfg0.slots t 3).cast nbuf0_3)) _ _ (fun h => h0 ((hcond0_0 t).mp h)) (fun h => h1 ((hcond0_1 t).mp h))
        (xblk0 V c t) (wblk0 V c t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Cert.Kernel.Hand

end
-- ==== Proof.KB.R1Body.lean ====
import proofs.«107334_j11879879541673_1_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the kernel body at every grid point

The body branches on `k = t mod 8`: at `k = 0` it first zeroes the accumulator; at every point it adds the
product of the point's blocks to the accumulator; at `k = 7` it stores the gate combination — the state block scaled
by one minus the update gate, plus the update gate times the hyperbolic tangent of the accumulator plus the bias
row — into the result block. Three cases meet the grid: `k = 0`, `1 ≤ k ≤ 6` and `k = 7`. -/

variable (V : (c : Dev nD) → (b : Ref sig .tc) → Buf (Elt F) ((c : Thread nD τ).loc b))

/-- "The accumulator is zeroed at this point", from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The result block is stored at this point". -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The five inputs are never idle; the result window is idle, and not written back, exactly off `k = 7`. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## Each input's staging buffer holds its block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The invariant's scoped buffers, with the accumulator brought to the front -/

/-- The core's scoped buffers other than region 1's staging buffers and its accumulator, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem rest1_eq (c : Dev nD) (S : sProp 𝕄) : rest1 (F := F) c S = iprop(S ∗ others1 (F := F) c) := by
  have h₁ : rest1 (F := F) c S ⊢ (iprop(S ∗ others1 (F := F) c) : sProp 𝕄) := by
    unfold rest1 others1
    iintro ⟨H1, H2, H3, H4, H5, H6, H7, H8, H9, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have h₂ : (iprop(S ∗ others1 (F := F) c) : sProp 𝕄) ⊢ rest1 (F := F) c S := by
    unfold rest1 others1
    iintro ⟨HS, H1, H2, H3, H4, H5, H6, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  exact BI.equiv_iff.mp ⟨h₁, h₂⟩

/-! ## The body's runs, case by case, on any whole memrefs -/

/-- What one whole-buffer store leaves reads back as its payload. -/
theorem acc_store_eq1 {sg : RefSig} (v : View sg .tc .vmem S256x2048 .f32) (f : v.ty.Contents (Elt F)) (p : Vec F S256x2048 .f32)
    (L : List (View.Piece (Elt F) S256x2048 .f32)) :
    v.read (Elt F) (v.writes (Elt F) f (⟨Rect.unit (s := S256x2048) ![0, 0] S256x2048.size inb_S256x2048_S256x2048_0_0, p⟩ :: L)) = p := by
  rw [View.read_writes_eq_canon _ _ _ (fun y => ⟨_, List.mem_cons_self, View.mem_set_unit_zero hz2 inb_S256x2048_S256x2048_0_0 y⟩),
    View.canon_cons_unit_zero hz2]

set_option maxHeartbeats 1000000 in
/-- `1 ≤ k ≤ 6`: the accumulator at `a` ends at `a` plus the product of the blocks; nothing else is touched. -/
theorem run1_B (c : Dev nD) (i : grid1.Coords) (arg2 : Memref sig .tc .vmem S256x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond1_0 i) (hc1 : ¬cond1_1 i)
    (x : Vec F S256x512 .bf16) (w : Vec F S512x2048 .bf16) (a : Vec F S256x2048 .f32) (E : Set ℕ) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k1_pay2 a x w)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%f8, %hf8, H8⟩, Hk⟩
  subst hf2; subst hf3; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_words
  rw [acc_store_eq1]
  simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]

set_option maxHeartbeats 1000000 in
/-- `k = 0`: whatever the accumulator held, it ends at zero plus the product of the blocks. -/
theorem run1_A (c : Dev nD) (i : grid1.Coords) (arg2 : Memref sig .tc .vmem S256x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole)
    (hc0 : cond1_0 i) (hc1 : ¬cond1_1 i)
    (x : Vec F S256x512 .bf16) (w : Vec F S512x2048 .bf16) (E : Set ℕ) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k1_pay2 k1_pay1 x w)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%a, %f8, -, H8⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_words
  rw [acc_store_eq1]
  simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]

set_option maxHeartbeats 1000000 in
/-- `k = 7`: the accumulator is updated as at `1 ≤ k ≤ 6`, and the result's buffer, whatever it held, ends at the gate
    combination of the state block, the update-gate block and the new accumulator plus the bias row. -/
theorem run1_C (c : Dev nD) (i : grid1.Coords) (arg2 : Memref sig .tc .vmem S256x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond1_0 i) (hc1 : cond1_1 i)
    (x : Vec F S256x512 .bf16) (w : Vec F S512x2048 .bf16) (b : Vec F S1x2048 .f32) (s : Vec F S256x2048 .f32) (z : Vec F S256x2048 .f32)
    (a : Vec F S256x2048 .f32) (E : Set ℕ) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare s ∗ owns (c : Thread nD τ) arg6 fullShare z
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg5 fullShare s ∗ owns (c : Thread nD τ) arg6 fullShare z
            ∗ owns (c : Thread nD τ) arg7 fullShare (k1_pay3 (k1_pay2 a x w) b z s) ∗ owns (c : Thread nD τ) arg8 fullShare (k1_pay2 a x w)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2; subst hf3; subst hf4; subst hf5; subst hf6; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [acc_store_eq1]
    simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]
  iexists _; isplitr
  swap; · iexact H8
  ipureintro
  sl_unfold_words
  rw [acc_store_eq1]
  simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' buffers hold their blocks; `t mod 8` says which case the point is in; the
    invariant hands the body the accumulator at what the point before left (at anything at the first point) and takes
    it back at this point's contents; where `k ≠ 7` the result's buffer goes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ, rest1_eq]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 128 := lt_of_lt_of_eq t.isLt (show cfg1.N = 128 from N_1)
  by_cases h1 : t.val % 8 = 7
  · have h0 : ¬t.val % 8 = 0 := by omega
    have hz : t.val ≠ 0 := by omega
    rw [show (dat1 V c).leavesExact 5 t = owns (c : Thread nD τ) (st1_5 t) fullShare ((dat1 V c).after 5 t) from by
      unfold Dat.leavesExact; rw [liveAt1_5 t ((hcond1_1 t).mpr h1)], after1_5]
    rw [acc1_step V c t.val t.isLt h0]
    rw [Phi1_castSucc V c t, Phi1_pos V c _ _ hz, rest1_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run1_C c (grid1.coords t) _ _ _ _ _ _ _ _ _ _ _ _ _ _ (fun h => h0 ((hcond1_0 t).mp h)) ((hcond1_1 t).mpr h1)
      (xblk1 V c t) (wblk1 V c t) (bblk1 V c t) (sblk1 V c t) (zblk1 V c t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat1 V c) 5 t (idleAt1_5 t (fun h => h1 ((hcond1_1 t).mp h))) (noFlush1_5 t (fun h => h1 ((hcond1_1 t).mp h)))]
    by_cases h0 : t.val % 8 = 0
    · rw [acc1_reset V c t.val t.isLt h0]
      by_cases hz : t.val = 0
      · rw [Phi1_castSucc V c t, Phi1_zero V c _ _ hz, PhiA1_eq, rest1_eq]
        iintro ⟨⟨⟨HS, Hoth⟩, Hg⟩, Ho, ⟨%d0, H0⟩, ⟨%d1, H1⟩, ⟨%d2, H2⟩, ⟨%d3, H3⟩, ⟨%d4, H4⟩, H5⟩
        iapply (run1_A c (grid1.coords t) _ _ _ _ (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) _ _ ((hcond1_0 t).mpr h0) (fun h => h1 ((hcond1_1 t).mp h))
          (xblk1 V c t) (wblk1 V c t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [Phi1_castSucc V c t, Phi1_pos V c _ _ hz, rest1_eq]
        iintro ⟨⟨⟨HS, Hoth⟩, Hg⟩, Ho, ⟨%d0, H0⟩, ⟨%d1, H1⟩, ⟨%d2, H2⟩, ⟨%d3, H3⟩, ⟨%d4, H4⟩, H5⟩
        iapply (run1_A c (grid1.coords t) _ _ _ _ (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) _ _ ((hcond1_0 t).mpr h0) (fun h => h1 ((hcond1_1 t).mp h))
          (xblk1 V c t) (wblk1 V c t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [acc1_step V c t.val t.isLt h0]
      rw [Phi1_castSucc V c t, Phi1_pos V c _ _ hz, rest1_eq]
      iintro ⟨⟨⟨HS, Hoth⟩, Hg⟩, Ho, ⟨%d0, H0⟩, ⟨%d1, H1⟩, ⟨%d2, H2⟩, ⟨%d3, H3⟩, ⟨%d4, H4⟩, H5⟩
      iapply (run1_B c (grid1.coords t) _ _ _ _ (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) _ _ (fun h => h0 ((hcond1_0 t).mp h)) (fun h => h1 ((hcond1_1 t).mp h))
        (xblk1 V c t) (wblk1 V c t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq, rest1_eq, rest1_eq]
  iintro ⟨⟨HS, Hoth⟩, Hg⟩
  isplitl [HS Hoth]
  · isplitl [HS]; · iexists _; iexact HS
    iexact Hoth
  iexact Hg

end Cert.Kernel.Hand

end
-- ==== Proof.KB.Run.lean ====
import proofs.«107334_j11879879541673_1_alg».proof.Proof.KB.Fold
import proofs.«107334_j11879879541673_1_alg».proof.Proof.KB.R0Body
import proofs.«107334_j11879879541673_1_alg».proof.Proof.KB.R1Body
import proofs.«107334_j11879879541673_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The last boundary's contents read back

The fold `W0 … W4` of the buffers' contents through @main is walked backwards: a reference that is no array of a
region keeps through that region what it held at its entry, and a reference no operation of a host stretch writes
keeps through that stretch what it held before it. -/

/-- A reference that neither host stretch writes and that is no array of either region holds at the end what the
    launch memory holds. -/
theorem W4_untouched (c : Dev nD) (r : Ref sig .tc)
    (h4 : ∀ w, Pipeline.arrRef spec1 w ≠ r) (h3 : r ∉ hostOps1_W)
    (h2 : ∀ w, Pipeline.arrRef spec0 w ≠ r) (h1 : r ∉ hostOps0_W) :
    W4 m c (Proc.devRef .tc r) = m ((c : Thread nD τ).loc r) :=
  calc W4 m c (Proc.devRef .tc r)
    _ = W3 m c (Proc.devRef .tc r) := W4_of_ne m c r h4
    _ = W2 m c (Proc.devRef .tc r) := StableHlo.after_of_writes_sub hostOps1 (W2 m c) hostOps1_writes h3
    _ = W1 m c (Proc.devRef .tc r) := W2_of_ne m c r h2
    _ = W0 m c (Proc.devRef .tc r) := StableHlo.after_of_writes_sub hostOps0 (W0 m c) hostOps0_writes h1
    _ = m ((c : Thread nD τ).loc r) := rfl

theorem W4_main_arg0 (c : Dev nD) : W4 m c (Proc.devRef .tc main_arg0) = m ((c : Thread nD τ).loc main_arg0) :=
  W4_untouched m c main_arg0 (by decide) (by decide) (by decide) (by decide)
theorem W4_main_arg2 (c : Dev nD) : W4 m c (Proc.devRef .tc main_arg2) = m ((c : Thread nD τ).loc main_arg2) :=
  W4_untouched m c main_arg2 (by decide) (by decide) (by decide) (by decide)
theorem W4_main_arg3 (c : Dev nD) : W4 m c (Proc.devRef .tc main_arg3) = m ((c : Thread nD τ).loc main_arg3) :=
  W4_untouched m c main_arg3 (by decide) (by decide) (by decide) (by decide)
theorem W4_main_arg4 (c : Dev nD) : W4 m c (Proc.devRef .tc main_arg4) = m ((c : Thread nD τ).loc main_arg4) :=
  W4_untouched m c main_arg4 (by decide) (by decide) (by decide) (by decide)
theorem W4_main_arg5 (c : Dev nD) : W4 m c (Proc.devRef .tc main_arg5) = m ((c : Thread nD τ).loc main_arg5) :=
  W4_untouched m c main_arg5 (by decide) (by decide) (by decide) (by decide)
theorem W4_main_arg6 (c : Dev nD) : W4 m c (Proc.devRef .tc main_arg6) = m ((c : Thread nD τ).loc main_arg6) :=
  W4_untouched m c main_arg6 (by decide) (by decide) (by decide) (by decide)
theorem W4_main_arg7 (c : Dev nD) : W4 m c (Proc.devRef .tc main_arg7) = m ((c : Thread nD τ).loc main_arg7) :=
  W4_untouched m c main_arg7 (by decide) (by decide) (by decide) (by decide)

/-- The states' array is the fourth window of region 1, an input: the region leaves it as entered; before that it is
    as the others. -/
theorem W4_main_arg1 (c : Dev nD) : W4 m c (Proc.devRef .tc main_arg1) = m ((c : Thread nD τ).loc main_arg1) :=
  calc W4 m c (Proc.devRef .tc main_arg1)
    _ = (dat1 (V3 m) c).arrAt 3 cfg1.N := W4_arr m c 3
    _ = (dat1 (V3 m) c).A 3 := (dat1 (V3 m) c).arrAt_in 3 rfl _
    _ = W3 m c (Proc.devRef .tc main_arg1) := A_eq1 (V3 m) c 3
    _ = W2 m c (Proc.devRef .tc main_arg1) := StableHlo.after_of_writes_sub hostOps1 (W2 m c) hostOps1_writes (by decide)
    _ = W1 m c (Proc.devRef .tc main_arg1) := W2_of_ne m c main_arg1 (by decide)
    _ = W0 m c (Proc.devRef .tc main_arg1) := StableHlo.after_of_writes_sub hostOps0 (W0 m c) hostOps0_writes (by decide)
    _ = m ((c : Thread nD τ).loc main_arg1) := rfl

/-- The result array is the last window of region 1, its output: at the end it holds what the region's write-backs
    leave. -/
theorem W4_result (c : Dev nD) : W4 m c (Proc.devRef .tc main_v14) = (dat1 (V3 m) c).arrAt 5 cfg1.N :=
  W4_arr m c 5

/-! # The proof data of both pipelines, and what a core holds between two segments -/

/-- Every pipeline's proof data, each at the contents its region is entered with. The match is on the literal index so
    that the pinned configuration at a numeral unfolds to the configuration itself. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- The kernels call no variant, no core owes another anything, and so no level is assigned. -/
abbrev 𝒱₀ : Variants := Variants.none
abbrev L : GSem nD τ sig → Finset Unit := fun _ => ∅
abbrev lv : GSem nD τ sig → Unit → ℕ := fun _ _ => 0

/-- The core's generator register at some state. -/
abbrev genReg (c : Dev nD) : sProp 𝕄 := iprop(∃ r, prngReg c r)
/-- The core owing nothing. -/
abbrev owesNone (c : Dev nD) : sProp 𝕄 := iprop(∃ W, owes (c : Thread nD τ) (0 : CellTallies nD τ sig Unit) W)
/-- What a core holds beside its buffers at every boundary of @main. -/
abbrev Side (c : Dev nD) : sProp 𝕄 := iprop(genReg (F := F) c ∗ owesNone (F := F) c)
/-- The unscoped buffers of core `c` at the contents `W c`. -/
abbrev bufsAt (W : Dev nD → Valuation τ sig (Elt F)) (c : Dev nD) : sProp 𝕄 :=
  StableHlo.held (c : Thread nD τ) (Pipeline.ucRefs τ sig) (W c)

/-- An unscoped reference of the TensorCore is one of those a boundary state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The host stretches as segments -/

/-- The first host stretch, from the launch contents. -/
abbrev host0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (Side (F := F))
/-- The second host stretch, from what region 0 leaves. -/
abbrev host1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (Side (F := F))

/-! ## The kernel regions as segments -/

/-- What the launch reads at the end, without the `owes`: every unscoped buffer at the last boundary's contents, the
    generator register at some state. -/
abbrev Tₙ (c : Dev nD) : sProp 𝕄 := iprop(bufsAt (W4 m) c ∗ genReg (F := F) c)

set_option backward.isDefEq.respectTransparency.types false in
/-- REGION 0 as a segment: entered with every unscoped buffer at `W1`, left with them at `W2`. At entry the
    region's arrays are taken out of the unscoped buffers and the others bypass the region; the generator register
    joins the scoped buffers no window stages to make the class's invariant, which is the kernel's invariant before its
    first point; after its last point the kernel's invariant gives the class's back (the accumulator's contents
    forgotten), and the arrays at what the write-backs leave rejoin the bypassed buffers. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(bufsAt (W1 m) c ∗ Side (F := F) c)
  post c := iprop(bufsAt (W2 m) c ∗ Side (F := F) c)
  X c := genReg (F := F) c
  Y c := genReg (F := F) c
  Z c := Pipeline.unscopedRest (Ix := Unit) (Name := ℕ) (U := UR sig nD τ) (Lvl := ℕ) spec0 c (V1 m c)
  hentry c := by
    rw [Pipeline.ownSems0_none]
    -- the arrays out of the unscoped buffers
    have harr := Pipeline.arrays_of_unscopedBufs (p := 0) (pcfgs (F := F)) adm (pdats m) launch0.win launch0.arr_whole c
      ((pdats m 0 c).share_full fun _ => rfl) (V1 m c) fun _ => rfl
    rw [Pipeline.unscopedBufs_held] at harr
    iintro ⟨⟨Hbufs, Hgen, Howe⟩, -, -⟩
    ihave Hsplit := harr $$ Hbufs
    icases Hsplit with ⟨Harrs, Hbypass⟩
    imodintro
    isplitl [Harrs]; · iexact Harrs
    isplitr
    · -- the kernel prefetches no table
      unfold Pipeline.prefHeld
      rw [show (Finset.univ : Finset (Fin 0)) = ∅ from rfl, BI.bigSep_empty]; iempintro
    isplitl [Howe]
    · -- owing nothing is owing the first tallies, whatever was recorded
      unfold Pipeline.Dat.owesAt Pipeline.owesWithin
      icases Howe with ⟨%W, Howe⟩
      iexists W
      isplitr; · ipureintro; exact fun _ _ => Or.inl trivial
      iexact Howe
    isplitl [Hgen]; · iexact Hgen
    iexact Hbypass
  hin c := by
    refine BIBase.Entails.trans ?_ (hin0 (V1 m) c)
    unfold Pipeline.ΦA
    iintro ⟨Hgen, -, Hscoped⟩
    isplitl [Hscoped]; · iexact Hscoped
    iexact Hgen
  hout c := by
    refine (hout0 (V1 m) c).trans ?_
    rw [Pipeline.ownSems0_none]; unfold Pipeline.ΦA
    iintro ⟨Hscoped, Hgen⟩
    isplitl [Hgen]; · iexact Hgen
    isplitr; · iempintro
    iexact Hscoped
  hexit c := by
    -- the arrays back among the bypassed buffers, at the next boundary's contents
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N)
      (fun w => (W2_arr m c w).symm)
      (fun b hb => W2_of_ne m c b fun w e => hb (Finset.mem_image.mpr ⟨w, Finset.mem_univ _, e⟩))
    rw [Pipeline.unscopedBufs_held] at hback
    iintro ⟨Harrs, Howe, Hgen, Hbypass⟩
    imodintro
    isplitl [Harrs Hbypass]
    · iapply hback; isplitl [Harrs] <;> iassumption
    isplitl [Hgen]; · iexact Hgen
    · -- the last tallies are nothing owed
      unfold Pipeline.Dat.owesAt Pipeline.owesWithin
      icases Howe with ⟨%W, -, Howe⟩
      iexists W; iexact Howe

set_option backward.isDefEq.respectTransparency.types false in
/-- REGION 1 as a segment: entered with every unscoped buffer at `W3`, left with them at `W4`. At entry the
    region's arrays are taken out of the unscoped buffers and the others bypass the region; the generator register
    joins the scoped buffers no window stages to make the class's invariant, which is the kernel's invariant before its
    first point; after its last point the kernel's invariant gives the class's back (the accumulator's contents
    forgotten), and the arrays at what the write-backs leave rejoin the bypassed buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(bufsAt (W3 m) c ∗ Side (F := F) c)
  post c := iprop(Tₙ m c ∗ owesNone (F := F) c)
  X c := genReg (F := F) c
  Y c := genReg (F := F) c
  Z c := Pipeline.unscopedRest (Ix := Unit) (Name := ℕ) (U := UR sig nD τ) (Lvl := ℕ) spec1 c (V3 m c)
  hentry c := by
    rw [Pipeline.ownSems0_none]
    -- the arrays out of the unscoped buffers
    have harr := Pipeline.arrays_of_unscopedBufs (p := 1) (pcfgs (F := F)) adm (pdats m) launch1.win launch1.arr_whole c
      ((pdats m 1 c).share_full fun _ => rfl) (V3 m c) fun _ => rfl
    rw [Pipeline.unscopedBufs_held] at harr
    iintro ⟨⟨Hbufs, Hgen, Howe⟩, -, -⟩
    ihave Hsplit := harr $$ Hbufs
    icases Hsplit with ⟨Harrs, Hbypass⟩
    imodintro
    isplitl [Harrs]; · iexact Harrs
    isplitr
    · -- the kernel prefetches no table
      unfold Pipeline.prefHeld
      rw [show (Finset.univ : Finset (Fin 0)) = ∅ from rfl, BI.bigSep_empty]; iempintro
    isplitl [Howe]
    · -- owing nothing is owing the first tallies, whatever was recorded
      unfold Pipeline.Dat.owesAt Pipeline.owesWithin
      icases Howe with ⟨%W, Howe⟩
      iexists W
      isplitr; · ipureintro; exact fun _ _ => Or.inl trivial
      iexact Howe
    isplitl [Hgen]; · iexact Hgen
    iexact Hbypass
  hin c := by
    refine BIBase.Entails.trans ?_ (hin1 (V3 m) c)
    unfold Pipeline.ΦA
    iintro ⟨Hgen, -, Hscoped⟩
    isplitl [Hscoped]; · iexact Hscoped
    iexact Hgen
  hout c := by
    refine (hout1 (V3 m) c).trans ?_
    rw [Pipeline.ownSems0_none]; unfold Pipeline.ΦA
    iintro ⟨Hscoped, Hgen⟩
    isplitl [Hgen]; · iexact Hgen
    isplitr; · iempintro
    iexact Hscoped
  hexit c := by
    -- the arrays back among the bypassed buffers, at the next boundary's contents
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N)
      (fun w => (W4_arr m c w).symm)
      (fun b hb => W4_of_ne m c b fun w e => hb (Finset.mem_image.mpr ⟨w, Finset.mem_univ _, e⟩))
    rw [Pipeline.unscopedBufs_held] at hback
    iintro ⟨Harrs, Howe, Hgen, Hbypass⟩
    imodintro
    isplitl [Harrs Hbypass Hgen]
    · isplitl [Harrs Hbypass]
      · iapply hback; isplitl [Harrs] <;> iassumption
      iexact Hgen
    · -- the last tallies are nothing owed
      unfold Pipeline.Dat.owesAt Pipeline.owesWithin
      icases Howe with ⟨%W, -, Howe⟩
      iexists W; iexact Howe

/-! ## @main as its segments, and the launch -/

/-- The four segments of @main in order: host stretch, region 0, host stretch, region 1. -/
abbrev mainSegs : List (Pipeline.Seg (pcfgs (F := F)) adm (pdats m) () defs₀ 𝒱₀ L lv) :=
  [.host (host0 m), .region (reg0 m), .host (host1 m), .region (reg1 m)]

/-- @main is the run of these segments. -/
theorem main_run (c : Dev nD) : main (F := F) c = Pipeline.Seg.run (mainSegs m) :=
  main_segs adm (pdats m) () 𝒱₀ L lv (host0 m) (host1 m) (reg0 m) (reg1 m) rfl rfl c

/-- The launch's ghost element is the pipeline library's own at the staging cells; no further ghost resource is made. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · rw [BI.bigSep_emp_const]; iempintro

/-- What the launch deals a core makes its first boundary state: the unscoped buffers at the launch contents, the
    generator register at its launch state, nothing owed and nothing recorded. -/
theorem launch_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ fun c : Dev nD => iprop(bufsAt (W0 m) c ∗ Side (F := F) c) := by
  refine Pipeline.initEach L lv fun c => ?_
  rw [show unscopedBufs c (fun b => m ((c : Thread nD τ).loc b)) = StableHlo.held (c : Thread nD τ) (Pipeline.ucRefs τ sig) (W0 m c)
    from Pipeline.unscopedBufs_held c (W0 m c)]
  iintro ⟨⟨Hbufs, -, Howe, -, Hgen, -⟩, -⟩
  imodintro
  isplitl [Hbufs]; · iexact Hbufs
  isplitl [Hgen]; · iexists _; iexact Hgen
  iexists ∅; iexact Howe

set_option backward.isDefEq.respectTransparency.types false in
/-- THE RUN. From any memory with zero counters every weakly fair execution of @main terminates, nothing faulting,
    with the result array at what region 1's write-backs leave and every argument array as launched. -/
theorem run_main : θ_run defs (onTc (τ := τ) (main (F := F))) ⟨m, fun _ => 0, ρ⟩ (fun r => ∀ c : Dev nD,
      r.2.mem ((c.tc : Thread nD τ).loc main_v14) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := launch_elem)
    (T₀ := fun c => iprop(bufsAt (W0 m) c ∗ Side (F := F) c)) (Tₙ := Tₙ m)
    (hch := ⟨fun _ => .rfl, fun _ => .rfl, fun _ => .rfl, fun _ => .rfl, fun _ => .rfl⟩)
    (hinit := launch_state m ρ)
    (QY := fun c s => ∀ b ∈ Pipeline.ucRefs τ sig, s.mem ((c : Thread nD τ).1, b) = W4 m c b)
    (hfin := fun c s' => by
      -- the buffers held beside a final state say what that state's memory holds at each
      iintro ⟨⟨Hbufs, -⟩, HSI⟩
      unfold bufsAt StableHlo.held
      imodintro
      iapply (pointsTo_read_all (Pipeline.ucRefs τ sig) (fun b => ((c : Thread nD τ).1, b)) (W4 m c) s')
      isplitl [Hbufs] <;> iassumption)
    (hQ := fun s h c =>
      ⟨(h c _ (mem_uc main_v14 (by decide))).trans (W4_result m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c)⟩)

end Cert.Kernel.Hand

end
-- ==== Proof.KI.Data.lean ====
import proofs.«107334_j11879879541673_1_alg».proof.Proof.Gen.KernelIdeal.Launch
import proofs.«107334_j11879879541673_1_alg».proof.Proof.Gen.KernelIdeal.Skeleton
import proofs.«107334_j11879879541673_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The two kernel regions' proof data

Region 0 computes, block by block, the gate pre-activations: at grid point `t = (i·2 + j)·4 + k` it adds the
product of the `(i, k)` block of the concatenated input and the `(k, j)` block of the concatenated weights into
an accumulator kept in scratch memory (zeroed when `k = 0`), and when `k = 3` stores the logistic of the
accumulator plus the bias row into the `(i, j)` block of the result.  Region 1 does the same over
`t = i·8 + k` with a hyperbolic tangent and the gate combination at `k = 7`.  Both are stated at a parameter `V`:
the TensorCore's buffer contents when the region is entered. -/

variable (V : (c : Dev nD) → (b : Ref sig .tc) → Buf (Elt F) ((c : Thread nD τ).loc b))

theorem hz2 : (![0, 0] : Fin 2 → Nat) = fun _ => 0 := funext fun a => by fin_cases a <;> rfl

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block, the weight block and the bias row of point `t`, at their literal types. -/
abbrev xblk0 (c : Dev nD) (t : Fin cfg0.N) : Vec F S512x1024 .bf16 := iblk0 V c 0 t
abbrev wblk0 (c : Dev nD) (t : Fin cfg0.N) : Vec F S1024x2048 .bf16 := iblk0 V c 1 t
abbrev bblk0 (c : Dev nD) (t : Fin cfg0.N) : Vec F S1x2048 .f32 := iblk0 V c 2 t

/-- The accumulator after point `n`: the product of the point's blocks added to zero when `n ≡ 0 (mod 4)`
    (a new output block begins), else to what the point before left. -/
def acc0 (c : Dev nD) : (n : ℕ) → n < cfg0.N → Vec F S512x2048 .f32
  | 0, h => k0_pay2 k0_pay1 (xblk0 V c ⟨0, h⟩) (wblk0 V c ⟨0, h⟩)
  | n + 1, h => k0_pay2 (if (n + 1) % 4 = 0 then k0_pay1 else acc0 c n (Nat.lt_of_succ_lt h)) (xblk0 V c ⟨n + 1, h⟩) (wblk0 V c ⟨n + 1, h⟩)

theorem acc0_reset (c : Dev nD) (n : ℕ) (h : n < cfg0.N) (h0 : n % 4 = 0) :
    acc0 V c n h = k0_pay2 k0_pay1 (xblk0 V c ⟨n, h⟩) (wblk0 V c ⟨n, h⟩) := by
  cases n with
  | zero => rfl
  | succ n => rw [acc0, if_pos h0]

theorem acc0_step (c : Dev nD) (n : ℕ) (h : n < cfg0.N) (h0 : ¬n % 4 = 0) :
    acc0 V c n h = k0_pay2 (acc0 V c (n - 1) (Nat.lt_of_le_of_lt (Nat.sub_le _ _) h)) (xblk0 V c ⟨n, h⟩) (wblk0 V c ⟨n, h⟩) := by
  cases n with
  | zero => exact absurd (Nat.zero_mod _) h0
  | succ n => rw [acc0, if_neg h0]; rfl

/-- The scratch accumulator of region 0 as a memref. -/
abbrev scM0 : Memref sig .tc .vmem S512x2048 .f32 := Memref.whole cc0_scratch0

/-- The core's scoped buffers other than region 0's staging buffers and its accumulator, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant of region 0 with the accumulator split off as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

/-- Region 0's invariant before position `n`: at entry the class's; afterwards the accumulator at what the point
    before left, the other scoped buffers at anything, the generator register at some state. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ others0 (F := F) c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ others0 (F := F) c) ∗ (∃ r, prngReg c r)) := by
  cases n with
  | zero => exact absurd rfl hz
  | succ n => rfl

/-- Region 0's proof data on core `c`: the arrays as the region finds them; after the body each input's buffer at
    its block, the result's at the logistic of the accumulator plus the bias row (read only where `k = 3`: elsewhere
    the window is idle and nothing consults it). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (bblk0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) (bblk0 V c t) := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input block, the weight block, the bias row, the state block and the update-gate block of point `t`. -/
abbrev xblk1 (c : Dev nD) (t : Fin cfg1.N) : Vec F S256x512 .bf16 := iblk1 V c 0 t
abbrev wblk1 (c : Dev nD) (t : Fin cfg1.N) : Vec F S512x2048 .bf16 := iblk1 V c 1 t
abbrev bblk1 (c : Dev nD) (t : Fin cfg1.N) : Vec F S1x2048 .f32 := iblk1 V c 2 t
abbrev sblk1 (c : Dev nD) (t : Fin cfg1.N) : Vec F S256x2048 .f32 := iblk1 V c 3 t
abbrev zblk1 (c : Dev nD) (t : Fin cfg1.N) : Vec F S256x2048 .f32 := iblk1 V c 4 t

/-- The accumulator after point `n`: restarted from zero when `n ≡ 0 (mod 8)`. -/
def acc1 (c : Dev nD) : (n : ℕ) → n < cfg1.N → Vec F S256x2048 .f32
  | 0, h => k1_pay2 k1_pay1 (xblk1 V c ⟨0, h⟩) (wblk1 V c ⟨0, h⟩)
  | n + 1, h => k1_pay2 (if (n + 1) % 8 = 0 then k1_pay1 else acc1 c n (Nat.lt_of_succ_lt h)) (xblk1 V c ⟨n + 1, h⟩) (wblk1 V c ⟨n + 1, h⟩)

theorem acc1_reset (c : Dev nD) (n : ℕ) (h : n < cfg1.N) (h0 : n % 8 = 0) :
    acc1 V c n h = k1_pay2 k1_pay1 (xblk1 V c ⟨n, h⟩) (wblk1 V c ⟨n, h⟩) := by
  cases n with
  | zero => rfl
  | succ n => rw [acc1, if_pos h0]

theorem acc1_step (c : Dev nD) (n : ℕ) (h : n < cfg1.N) (h0 : ¬n % 8 = 0) :
    acc1 V c n h = k1_pay2 (acc1 V c (n - 1) (Nat.lt_of_le_of_lt (Nat.sub_le _ _) h)) (xblk1 V c ⟨n, h⟩) (wblk1 V c ⟨n, h⟩) := by
  cases n with
  | zero => exact absurd (Nat.zero_mod _) h0
  | succ n => rw [acc1, if_neg h0]; rfl

/-- The scratch accumulator of region 1 as a memref. -/
abbrev scM1 : Memref sig .tc .vmem S256x2048 .f32 := Memref.whole cc1_scratch0

/-- The core's scoped buffers that are no staging buffer of region 1, each at some contents, but the accumulator
    (the last of them) at `S`. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ S)

/-- The class invariant of region 1 with the accumulator split off (it is listed last among the scoped buffers). -/
theorem PhiA1_eq (c : Dev nD) :
    (Pipeline.ΦA spec1 c : sProp 𝕄)
      = iprop(rest1 (F := F) c (iprop(∃ d, owns (c : Thread nD τ) scM1 fullShare d)) ∗ (∃ r, prngReg c r)) := by
  unfold Pipeline.ΦA rest1; rw [scopedRest1_eq]; simp only [scM1, owns_whole]; try rfl

def Phi1 (c : Dev nD) : (n : ℕ) → n ≤ cfg1.N → sProp 𝕄
  | 0, _ => Pipeline.ΦA spec1 c
  | n + 1, hn => iprop(rest1 (F := F) c (owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1 (F := F) c (owns (c : Thread nD τ) scM1 fullShare (acc1 V c n hn)) ∗ (∃ r, prngReg c r)) := rfl

theorem Phi1_pos (c : Dev nD) (n : ℕ) (h : n ≤ cfg1.N) (hz : n ≠ 0) :
    Phi1 V c n h = iprop(rest1 (F := F) c (owns (c : Thread nD τ) scM1 fullShare (acc1 V c (n - 1) (by omega))) ∗ (∃ r, prngReg c r)) := by
  cases n with
  | zero => exact absurd rfl hz
  | succ n => rfl

/-- Region 1's proof data on core `c`: after the body each input's buffer at its block, the result's at the gate
    combination of the state block, the update-gate block and the hyperbolic tangent of the accumulator plus the bias
    row (read only where `k = 7`). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (bblk1 V c t) (zblk1 V c t) (sblk1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay3 (acc1 V c t.val t.isLt) (bblk1 V c t) (zblk1 V c t) (sblk1 V c t) := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

end Cert.KernelIdeal.Hand

end
-- ==== Proof.KI.Fold.lean ====
import proofs.«107334_j11879879541673_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The buffers' contents at each boundary of @main

@main is: host operations, region 0, host operations, region 1. The contents at each boundary are a fold from the
launch memory: a host stretch applies its operations; a region leaves its arrays at what its write-backs make of them
and every other buffer as it found it. -/

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

end Cert.KernelIdeal.Hand

end
-- ==== Proof.KI.R0Body.lean ====
import proofs.«107334_j11879879541673_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the kernel body at every grid point

The body branches on `k = t mod 4`: at `k = 0` it first zeroes the accumulator; at every point it adds the
product of the point's blocks to the accumulator; at `k = 3` it stores the logistic of the accumulator plus the
bias row into the result block. Three cases meet the grid: `k = 0`, `k ∈ {1, 2}` and `k = 3`. -/

variable (V : (c : Dev nD) → (b : Ref sig .tc) → Buf (Elt F) ((c : Thread nD τ).loc b))

/-- "The accumulator is zeroed at this point", from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "The result block is stored at this point". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The three inputs are never idle; the result window is idle, and not written back, exactly off `k = 3`. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## Each input's staging buffer holds its block, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body's runs, case by case, on any whole memrefs -/

/-- What one whole-buffer store leaves reads back as its payload, and a whole-buffer load reads the contents. -/
theorem acc_store_eq {sg : RefSig} (v : View sg .tc .vmem S512x2048 .f32) (f : v.ty.Contents (Elt F)) (p : Vec F S512x2048 .f32)
    (L : List (View.Piece (Elt F) S512x2048 .f32)) :
    v.read (Elt F) (v.writes (Elt F) f (⟨Rect.unit (s := S512x2048) ![0, 0] S512x2048.size inb_S512x2048_S512x2048_0_0, p⟩ :: L)) = p := by
  rw [View.read_writes_eq_canon _ _ _ (fun y => ⟨_, List.mem_cons_self, View.mem_set_unit_zero hz2 inb_S512x2048_S512x2048_0_0 y⟩),
    View.canon_cons_unit_zero hz2]

set_option maxHeartbeats 1000000 in
/-- `k ∈ {1, 2}`: the accumulator at `a` ends at `a` plus the product of the blocks; the bias row's and the result's
    buffers are not touched. -/
theorem run0_B (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc0 : ¬cond0_0 i) (hc1 : ¬cond0_1 i)
    (x : Vec F S512x1024 .bf16) (w : Vec F S1024x2048 .bf16) (a : Vec F S512x2048 .f32) (E : Set ℕ) (K : PUnit → sProp 𝕄) :
    iprop(owns (c : Thread nD τ) arg3 fullShare x ∗ owns (c : Thread nD τ) arg4 fullShare w ∗ owns (c : Thread nD τ) arg7 fullShare a
        ∗ (iprop(owns (c : Thread nD τ) arg3 fullShare x ∗ owns (c : Thread nD τ) arg4 fullShare w ∗ owns (c : Thread nD τ) arg7 fullShare (k0_pay2 a x w)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f7, %hf7, H7⟩, Hk⟩
  subst hf3; subst hf4; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  rw [acc_store_eq]
  simp only [View.readAt_eq_ld, View.ld_unit_zero (S := S512x2048) hz2, View.ld_unit_zero (S := S512x1024) hz2, View.ld_unit_zero (S := S1024x2048) hz2]

set_option maxHeartbeats 1000000 in
/-- `k = 0`: whatever the accumulator held, it ends at zero plus the product of the blocks. -/
theorem run0_A (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc0 : cond0_0 i) (hc1 : ¬cond0_1 i)
    (x : Vec F S512x1024 .bf16) (w : Vec F S1024x2048 .bf16) (E : Set ℕ) (K : PUnit → sProp 𝕄) :
    iprop(owns (c : Thread nD τ) arg3 fullShare x ∗ owns (c : Thread nD τ) arg4 fullShare w ∗ (∃ a, owns (c : Thread nD τ) arg7 fullShare a)
        ∗ (iprop(owns (c : Thread nD τ) arg3 fullShare x ∗ owns (c : Thread nD τ) arg4 fullShare w ∗ owns (c : Thread nD τ) arg7 fullShare (k0_pay2 k0_pay1 x w)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%a, %f7, -, H7⟩, Hk⟩
  subst hf3; subst hf4
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  rw [acc_store_eq]
  simp only [View.readCov_unit_zero (S := S512x2048) _ hz2, View.readAt_eq_ld, View.ld_unit_zero (S := S512x2048) hz2, View.ld_unit_zero (S := S512x1024) hz2, View.ld_unit_zero (S := S1024x2048) hz2, View.ld_unit_zero (S := S1x2048) hz2]

set_option maxHeartbeats 1000000 in
/-- `k = 3`: the accumulator is updated as at `k ∈ {1, 2}`, and the result's buffer, whatever it held, ends at the
    logistic of the new accumulator plus the bias row. -/
theorem run0_C (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc0 : ¬cond0_0 i) (hc1 : cond0_1 i)
    (x : Vec F S512x1024 .bf16) (w : Vec F S1024x2048 .bf16) (b : Vec F S1x2048 .f32) (a : Vec F S512x2048 .f32) (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 a x w) b) ∗ owns (c : Thread nD τ) arg7 fullShare (k0_pay2 a x w)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [acc_store_eq]
    simp only [View.readCov_unit_zero (S := S512x2048) _ hz2, View.readAt_eq_ld, View.ld_unit_zero (S := S512x2048) hz2, View.ld_unit_zero (S := S512x1024) hz2, View.ld_unit_zero (S := S1024x2048) hz2, View.ld_unit_zero (S := S1x2048) hz2]
  iexists _; isplitr
  swap; · iexact H7
  ipureintro
  sl_unfold_words
  rw [acc_store_eq]
  simp only [View.readCov_unit_zero (S := S512x2048) _ hz2, View.readAt_eq_ld, View.ld_unit_zero (S := S512x2048) hz2, View.ld_unit_zero (S := S512x1024) hz2, View.ld_unit_zero (S := S1024x2048) hz2, View.ld_unit_zero (S := S1x2048) hz2]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; `t mod 4` says which case the point is in; the
    invariant hands the body the accumulator at what the point before left (at anything at the first point) and takes
    it back at this point's contents; where `k ≠ 3` the result's buffer goes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 64 := lt_of_lt_of_eq t.isLt (show cfg0.N = 64 from N_0)
  by_cases h1 : t.val % 4 = 3
  · have h0 : ¬t.val % 4 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [acc0_step V c t.val t.isLt h0]
    rw [Phi0_castSucc V c t, Phi0_pos V c _ _ hz]
    iintro ⟨⟨⟨HS, Hoth⟩, Hg⟩, Ho, ⟨%d0, H0⟩, ⟨%d1, H1⟩, ⟨%d2, H2⟩, ⟨%d3, H3⟩⟩
    iapply (run0_C c (grid0.coords t) _ _ _ _ _ _ _ _ _ _ (fun h => h0 ((hcond0_0 t).mp h)) ((hcond0_1 t).mpr h1)
      (xblk0 V c t) (wblk0 V c t) (bblk0 V c t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 4 = 0
    · rw [acc0_reset V c t.val t.isLt h0]
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩, H3⟩
        iapply (run0_A c (grid0.coords t) _ _ _ _ (st0_2 t) (hstage0_2 ((cfg0.slots t 2).cast nbuf0_2)) (st0_3 t) (hstage0_3 ((cfg0.slots t 3).cast nbuf0_3)) _ _ ((hcond0_0 t).mpr h0) (fun h => h1 ((hcond0_1 t).mp h))
          (xblk0 V c t) (wblk0 V c t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · rw [Phi0_castSucc V c t, Phi0_pos V c _ _ hz]
        iintro ⟨⟨⟨HS, Hoth⟩, Hg⟩, Ho, ⟨%d0, H0⟩, ⟨%d1, H1⟩, ⟨%d2, H2⟩, H3⟩
        iapply (run0_A c (grid0.coords t) _ _ _ _ (st0_2 t) (hstage0_2 ((cfg0.slots t 2).cast nbuf0_2)) (st0_3 t) (hstage0_3 ((cfg0.slots t 3).cast nbuf0_3)) _ _ ((hcond0_0 t).mpr h0) (fun h => h1 ((hcond0_1 t).mp h))
          (xblk0 V c t) (wblk0 V c t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
    · have hz : t.val ≠ 0 := by omega
      rw [acc0_step V c t.val t.isLt h0]
      rw [Phi0_castSucc V c t, Phi0_pos V c _ _ hz]
      iintro ⟨⟨⟨HS, Hoth⟩, Hg⟩, Ho, ⟨%d0, H0⟩, ⟨%d1, H1⟩, ⟨%d2, H2⟩, H3⟩
      iapply (run0_B c (grid0.coords t) _ _ _ _ (st0_2 t) (hstage0_2 ((cfg0.slots t 2).cast nbuf0_2)) (st0_3 t) (hstage0_3 ((cfg0.slots t 3).cast nbuf0_3)) _ _ (fun h => h0 ((hcond0_0 t).mp h)) (fun h => h1 ((hcond0_1 t).mp h))
        (xblk0 V c t) (wblk0 V c t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Cert.KernelIdeal.Hand

end
-- ==== Proof.KI.R1Body.lean ====
import proofs.«107334_j11879879541673_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the kernel body at every grid point

The body branches on `k = t mod 8`: at `k = 0` it first zeroes the accumulator; at every point it adds the
product of the point's blocks to the accumulator; at `k = 7` it stores the gate combination — the state block scaled
by one minus the update gate, plus the update gate times the hyperbolic tangent of the accumulator plus the bias
row — into the result block. Three cases meet the grid: `k = 0`, `1 ≤ k ≤ 6` and `k = 7`. -/

variable (V : (c : Dev nD) → (b : Ref sig .tc) → Buf (Elt F) ((c : Thread nD τ).loc b))

/-- "The accumulator is zeroed at this point", from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The result block is stored at this point". -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The five inputs are never idle; the result window is idle, and not written back, exactly off `k = 7`. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## Each input's staging buffer holds its block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The invariant's scoped buffers, with the accumulator brought to the front -/

/-- The core's scoped buffers other than region 1's staging buffers and its accumulator, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem rest1_eq (c : Dev nD) (S : sProp 𝕄) : rest1 (F := F) c S = iprop(S ∗ others1 (F := F) c) := by
  have h₁ : rest1 (F := F) c S ⊢ (iprop(S ∗ others1 (F := F) c) : sProp 𝕄) := by
    unfold rest1 others1
    iintro ⟨H1, H2, H3, H4, H5, H6, H7, H8, H9, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have h₂ : (iprop(S ∗ others1 (F := F) c) : sProp 𝕄) ⊢ rest1 (F := F) c S := by
    unfold rest1 others1
    iintro ⟨HS, H1, H2, H3, H4, H5, H6, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  exact BI.equiv_iff.mp ⟨h₁, h₂⟩

/-! ## The body's runs, case by case, on any whole memrefs -/

/-- What one whole-buffer store leaves reads back as its payload. -/
theorem acc_store_eq1 {sg : RefSig} (v : View sg .tc .vmem S256x2048 .f32) (f : v.ty.Contents (Elt F)) (p : Vec F S256x2048 .f32)
    (L : List (View.Piece (Elt F) S256x2048 .f32)) :
    v.read (Elt F) (v.writes (Elt F) f (⟨Rect.unit (s := S256x2048) ![0, 0] S256x2048.size inb_S256x2048_S256x2048_0_0, p⟩ :: L)) = p := by
  rw [View.read_writes_eq_canon _ _ _ (fun y => ⟨_, List.mem_cons_self, View.mem_set_unit_zero hz2 inb_S256x2048_S256x2048_0_0 y⟩),
    View.canon_cons_unit_zero hz2]

set_option maxHeartbeats 1000000 in
/-- `1 ≤ k ≤ 6`: the accumulator at `a` ends at `a` plus the product of the blocks; nothing else is touched. -/
theorem run1_B (c : Dev nD) (i : grid1.Coords) (arg2 : Memref sig .tc .vmem S256x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond1_0 i) (hc1 : ¬cond1_1 i)
    (x : Vec F S256x512 .bf16) (w : Vec F S512x2048 .bf16) (a : Vec F S256x2048 .f32) (E : Set ℕ) (K : PUnit → sProp 𝕄) :
    iprop(owns (c : Thread nD τ) arg2 fullShare x ∗ owns (c : Thread nD τ) arg3 fullShare w ∗ owns (c : Thread nD τ) arg8 fullShare a
        ∗ (iprop(owns (c : Thread nD τ) arg2 fullShare x ∗ owns (c : Thread nD τ) arg3 fullShare w ∗ owns (c : Thread nD τ) arg8 fullShare (k1_pay2 a x w)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%f8, %hf8, H8⟩, Hk⟩
  subst hf2; subst hf3; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_words
  rw [acc_store_eq1]
  simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]

set_option maxHeartbeats 1000000 in
/-- `k = 0`: whatever the accumulator held, it ends at zero plus the product of the blocks. -/
theorem run1_A (c : Dev nD) (i : grid1.Coords) (arg2 : Memref sig .tc .vmem S256x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole)
    (hc0 : cond1_0 i) (hc1 : ¬cond1_1 i)
    (x : Vec F S256x512 .bf16) (w : Vec F S512x2048 .bf16) (E : Set ℕ) (K : PUnit → sProp 𝕄) :
    iprop(owns (c : Thread nD τ) arg2 fullShare x ∗ owns (c : Thread nD τ) arg3 fullShare w ∗ (∃ a, owns (c : Thread nD τ) arg8 fullShare a)
        ∗ (iprop(owns (c : Thread nD τ) arg2 fullShare x ∗ owns (c : Thread nD τ) arg3 fullShare w ∗ owns (c : Thread nD τ) arg8 fullShare (k1_pay2 k1_pay1 x w)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%a, %f8, -, H8⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_words
  rw [acc_store_eq1]
  simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]

set_option maxHeartbeats 1000000 in
/-- `k = 7`: the accumulator is updated as at `1 ≤ k ≤ 6`, and the result's buffer, whatever it held, ends at the gate
    combination of the state block, the update-gate block and the new accumulator plus the bias row. -/
theorem run1_C (c : Dev nD) (i : grid1.Coords) (arg2 : Memref sig .tc .vmem S256x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond1_0 i) (hc1 : cond1_1 i)
    (x : Vec F S256x512 .bf16) (w : Vec F S512x2048 .bf16) (b : Vec F S1x2048 .f32) (s : Vec F S256x2048 .f32) (z : Vec F S256x2048 .f32)
    (a : Vec F S256x2048 .f32) (E : Set ℕ) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare s ∗ owns (c : Thread nD τ) arg6 fullShare z
        ∗ (∃ d, owns (c : Thread nD τ) arg7 fullShare d) ∗ owns (c : Thread nD τ) arg8 fullShare a
        ∗ (iprop(owns (c : Thread nD τ) arg2 fullShare x ∗ owns (c : Thread nD τ) arg3 fullShare w ∗ owns (c : Thread nD τ) arg4 fullShare b
            ∗ owns (c : Thread nD τ) arg5 fullShare s ∗ owns (c : Thread nD τ) arg6 fullShare z
            ∗ owns (c : Thread nD τ) arg7 fullShare (k1_pay3 (k1_pay2 a x w) b z s) ∗ owns (c : Thread nD τ) arg8 fullShare (k1_pay2 a x w)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2; subst hf3; subst hf4; subst hf5; subst hf6; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [acc_store_eq1]
    simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]
  iexists _; isplitr
  swap; · iexact H8
  ipureintro
  sl_unfold_words
  rw [acc_store_eq1]
  simp only [View.readCov_unit_zero (S := S256x2048) _ hz2, View.readAt_eq_ld, View.ld_unit_zero (S := S256x2048) hz2, View.ld_unit_zero (S := S256x512) hz2, View.ld_unit_zero (S := S512x2048) hz2, View.ld_unit_zero (S := S1x2048) hz2]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' buffers hold their blocks; `t mod 8` says which case the point is in; the
    invariant hands the body the accumulator at what the point before left (at anything at the first point) and takes
    it back at this point's contents; where `k ≠ 7` the result's buffer goes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ, rest1_eq]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 128 := lt_of_lt_of_eq t.isLt (show cfg1.N = 128 from N_1)
  by_cases h1 : t.val % 8 = 7
  · have h0 : ¬t.val % 8 = 0 := by omega
    have hz : t.val ≠ 0 := by omega
    rw [show (dat1 V c).leavesExact 5 t = owns (c : Thread nD τ) (st1_5 t) fullShare ((dat1 V c).after 5 t) from by
      unfold Dat.leavesExact; rw [liveAt1_5 t ((hcond1_1 t).mpr h1)], after1_5]
    rw [acc1_step V c t.val t.isLt h0]
    rw [Phi1_castSucc V c t, Phi1_pos V c _ _ hz, rest1_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run1_C c (grid1.coords t) _ _ _ _ _ _ _ _ _ _ _ _ _ _ (fun h => h0 ((hcond1_0 t).mp h)) ((hcond1_1 t).mpr h1)
      (xblk1 V c t) (wblk1 V c t) (bblk1 V c t) (sblk1 V c t) (zblk1 V c t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat1 V c) 5 t (idleAt1_5 t (fun h => h1 ((hcond1_1 t).mp h))) (noFlush1_5 t (fun h => h1 ((hcond1_1 t).mp h)))]
    by_cases h0 : t.val % 8 = 0
    · rw [acc1_reset V c t.val t.isLt h0]
      by_cases hz : t.val = 0
      · rw [Phi1_castSucc V c t, Phi1_zero V c _ _ hz, PhiA1_eq, rest1_eq]
        iintro ⟨⟨⟨HS, Hoth⟩, Hg⟩, Ho, ⟨%d0, H0⟩, ⟨%d1, H1⟩, ⟨%d2, H2⟩, ⟨%d3, H3⟩, ⟨%d4, H4⟩, H5⟩
        iapply (run1_A c (grid1.coords t) _ _ _ _ (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) _ _ ((hcond1_0 t).mpr h0) (fun h => h1 ((hcond1_1 t).mp h))
          (xblk1 V c t) (wblk1 V c t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [Phi1_castSucc V c t, Phi1_pos V c _ _ hz, rest1_eq]
        iintro ⟨⟨⟨HS, Hoth⟩, Hg⟩, Ho, ⟨%d0, H0⟩, ⟨%d1, H1⟩, ⟨%d2, H2⟩, ⟨%d3, H3⟩, ⟨%d4, H4⟩, H5⟩
        iapply (run1_A c (grid1.coords t) _ _ _ _ (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) _ _ ((hcond1_0 t).mpr h0) (fun h => h1 ((hcond1_1 t).mp h))
          (xblk1 V c t) (wblk1 V c t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [acc1_step V c t.val t.isLt h0]
      rw [Phi1_castSucc V c t, Phi1_pos V c _ _ hz, rest1_eq]
      iintro ⟨⟨⟨HS, Hoth⟩, Hg⟩, Ho, ⟨%d0, H0⟩, ⟨%d1, H1⟩, ⟨%d2, H2⟩, ⟨%d3, H3⟩, ⟨%d4, H4⟩, H5⟩
      iapply (run1_B c (grid1.coords t) _ _ _ _ (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) _ _ (fun h => h0 ((hcond1_0 t).mp h)) (fun h => h1 ((hcond1_1 t).mp h))
        (xblk1 V c t) (wblk1 V c t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq, rest1_eq, rest1_eq]
  iintro ⟨⟨HS, Hoth⟩, Hg⟩
  isplitl [HS Hoth]
  · isplitl [HS]; · iexists _; iexact HS
    iexact Hoth
  iexact Hg

end Cert.KernelIdeal.Hand

end
-- ==== Proof.KI.Run.lean ====
import proofs.«107334_j11879879541673_1_alg».proof.Proof.KI.Fold
import proofs.«107334_j11879879541673_1_alg».proof.Proof.KI.R0Body
import proofs.«107334_j11879879541673_1_alg».proof.Proof.KI.R1Body
import proofs.«107334_j11879879541673_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The last boundary's contents read back

The fold `W0 … W4` of the buffers' contents through @main is walked backwards: a reference that is no array of a
region keeps through that region what it held at its entry, and a reference no operation of a host stretch writes
keeps through that stretch what it held before it. -/

/-- A reference that neither host stretch writes and that is no array of either region holds at the end what the
    launch memory holds. -/
theorem W4_untouched (c : Dev nD) (r : Ref sig .tc)
    (h4 : ∀ w, Pipeline.arrRef spec1 w ≠ r) (h3 : r ∉ hostOps1_W)
    (h2 : ∀ w, Pipeline.arrRef spec0 w ≠ r) (h1 : r ∉ hostOps0_W) :
    W4 m c (Proc.devRef .tc r) = m ((c : Thread nD τ).loc r) :=
  calc W4 m c (Proc.devRef .tc r)
    _ = W3 m c (Proc.devRef .tc r) := W4_of_ne m c r h4
    _ = W2 m c (Proc.devRef .tc r) := StableHlo.after_of_writes_sub hostOps1 (W2 m c) hostOps1_writes h3
    _ = W1 m c (Proc.devRef .tc r) := W2_of_ne m c r h2
    _ = W0 m c (Proc.devRef .tc r) := StableHlo.after_of_writes_sub hostOps0 (W0 m c) hostOps0_writes h1
    _ = m ((c : Thread nD τ).loc r) := rfl

theorem W4_main_arg0 (c : Dev nD) : W4 m c (Proc.devRef .tc main_arg0) = m ((c : Thread nD τ).loc main_arg0) :=
  W4_untouched m c main_arg0 (by decide) (by decide) (by decide) (by decide)
theorem W4_main_arg2 (c : Dev nD) : W4 m c (Proc.devRef .tc main_arg2) = m ((c : Thread nD τ).loc main_arg2) :=
  W4_untouched m c main_arg2 (by decide) (by decide) (by decide) (by decide)
theorem W4_main_arg3 (c : Dev nD) : W4 m c (Proc.devRef .tc main_arg3) = m ((c : Thread nD τ).loc main_arg3) :=
  W4_untouched m c main_arg3 (by decide) (by decide) (by decide) (by decide)
theorem W4_main_arg4 (c : Dev nD) : W4 m c (Proc.devRef .tc main_arg4) = m ((c : Thread nD τ).loc main_arg4) :=
  W4_untouched m c main_arg4 (by decide) (by decide) (by decide) (by decide)
theorem W4_main_arg5 (c : Dev nD) : W4 m c (Proc.devRef .tc main_arg5) = m ((c : Thread nD τ).loc main_arg5) :=
  W4_untouched m c main_arg5 (by decide) (by decide) (by decide) (by decide)
theorem W4_main_arg6 (c : Dev nD) : W4 m c (Proc.devRef .tc main_arg6) = m ((c : Thread nD τ).loc main_arg6) :=
  W4_untouched m c main_arg6 (by decide) (by decide) (by decide) (by decide)
theorem W4_main_arg7 (c : Dev nD) : W4 m c (Proc.devRef .tc main_arg7) = m ((c : Thread nD τ).loc main_arg7) :=
  W4_untouched m c main_arg7 (by decide) (by decide) (by decide) (by decide)

/-- The states' array is the fourth window of region 1, an input: the region leaves it as entered; before that it is
    as the others. -/
theorem W4_main_arg1 (c : Dev nD) : W4 m c (Proc.devRef .tc main_arg1) = m ((c : Thread nD τ).loc main_arg1) :=
  calc W4 m c (Proc.devRef .tc main_arg1)
    _ = (dat1 (V3 m) c).arrAt 3 cfg1.N := W4_arr m c 3
    _ = (dat1 (V3 m) c).A 3 := (dat1 (V3 m) c).arrAt_in 3 rfl _
    _ = W3 m c (Proc.devRef .tc main_arg1) := A_eq1 (V3 m) c 3
    _ = W2 m c (Proc.devRef .tc main_arg1) := StableHlo.after_of_writes_sub hostOps1 (W2 m c) hostOps1_writes (by decide)
    _ = W1 m c (Proc.devRef .tc main_arg1) := W2_of_ne m c main_arg1 (by decide)
    _ = W0 m c (Proc.devRef .tc main_arg1) := StableHlo.after_of_writes_sub hostOps0 (W0 m c) hostOps0_writes (by decide)
    _ = m ((c : Thread nD τ).loc main_arg1) := rfl

/-- The result array is the last window of region 1, its output: at the end it holds what the region's write-backs
    leave. -/
theorem W4_result (c : Dev nD) : W4 m c (Proc.devRef .tc main_v14) = (dat1 (V3 m) c).arrAt 5 cfg1.N :=
  W4_arr m c 5

/-! # The proof data of both pipelines, and what a core holds between two segments -/

/-- Every pipeline's proof data, each at the contents its region is entered with. The match is on the literal index so
    that the pinned configuration at a numeral unfolds to the configuration itself. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- The kernels call no variant, no core owes another anything, and so no level is assigned. -/
abbrev 𝒱₀ : Variants := Variants.none
abbrev L : GSem nD τ sig → Finset Unit := fun _ => ∅
abbrev lv : GSem nD τ sig → Unit → ℕ := fun _ _ => 0

/-- The core's generator register at some state. -/
abbrev genReg (c : Dev nD) : sProp 𝕄 := iprop(∃ r, prngReg c r)
/-- The core owing nothing. -/
abbrev owesNone (c : Dev nD) : sProp 𝕄 := iprop(∃ W, owes (c : Thread nD τ) (0 : CellTallies nD τ sig Unit) W)
/-- What a core holds beside its buffers at every boundary of @main. -/
abbrev Side (c : Dev nD) : sProp 𝕄 := iprop(genReg (F := F) c ∗ owesNone (F := F) c)
/-- The unscoped buffers of core `c` at the contents `W c`. -/
abbrev bufsAt (W : Dev nD → Valuation τ sig (Elt F)) (c : Dev nD) : sProp 𝕄 :=
  StableHlo.held (c : Thread nD τ) (Pipeline.ucRefs τ sig) (W c)

/-- An unscoped reference of the TensorCore is one of those a boundary state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The host stretches as segments -/

/-- The first host stretch, from the launch contents. -/
abbrev host0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (Side (F := F))
/-- The second host stretch, from what region 0 leaves. -/
abbrev host1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (Side (F := F))

/-! ## The kernel regions as segments -/

/-- What the launch reads at the end, without the `owes`: every unscoped buffer at the last boundary's contents, the
    generator register at some state. -/
abbrev Tₙ (c : Dev nD) : sProp 𝕄 := iprop(bufsAt (W4 m) c ∗ genReg (F := F) c)

set_option backward.isDefEq.respectTransparency.types false in
/-- REGION 0 as a segment: entered with every unscoped buffer at `W1`, left with them at `W2`. At entry the
    region's arrays are taken out of the unscoped buffers and the others bypass the region; the generator register
    joins the scoped buffers no window stages to make the class's invariant, which is the kernel's invariant before its
    first point; after its last point the kernel's invariant gives the class's back (the accumulator's contents
    forgotten), and the arrays at what the write-backs leave rejoin the bypassed buffers. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(bufsAt (W1 m) c ∗ Side (F := F) c)
  post c := iprop(bufsAt (W2 m) c ∗ Side (F := F) c)
  X c := genReg (F := F) c
  Y c := genReg (F := F) c
  Z c := Pipeline.unscopedRest (Ix := Unit) (Name := ℕ) (U := UR sig nD τ) (Lvl := ℕ) spec0 c (V1 m c)
  hentry c := by
    rw [Pipeline.ownSems0_none]
    -- the arrays out of the unscoped buffers
    have harr := Pipeline.arrays_of_unscopedBufs (p := 0) (pcfgs (F := F)) adm (pdats m) launch0.win launch0.arr_whole c
      ((pdats m 0 c).share_full fun _ => rfl) (V1 m c) fun _ => rfl
    rw [Pipeline.unscopedBufs_held] at harr
    iintro ⟨⟨Hbufs, Hgen, Howe⟩, -, -⟩
    ihave Hsplit := harr $$ Hbufs
    icases Hsplit with ⟨Harrs, Hbypass⟩
    imodintro
    isplitl [Harrs]; · iexact Harrs
    isplitr
    · -- the kernel prefetches no table
      unfold Pipeline.prefHeld
      rw [show (Finset.univ : Finset (Fin 0)) = ∅ from rfl, BI.bigSep_empty]; iempintro
    isplitl [Howe]
    · -- owing nothing is owing the first tallies, whatever was recorded
      unfold Pipeline.Dat.owesAt Pipeline.owesWithin
      icases Howe with ⟨%W, Howe⟩
      iexists W
      isplitr; · ipureintro; exact fun _ _ => Or.inl trivial
      iexact Howe
    isplitl [Hgen]; · iexact Hgen
    iexact Hbypass
  hin c := by
    refine BIBase.Entails.trans ?_ (hin0 (V1 m) c)
    unfold Pipeline.ΦA
    iintro ⟨Hgen, -, Hscoped⟩
    isplitl [Hscoped]; · iexact Hscoped
    iexact Hgen
  hout c := by
    refine (hout0 (V1 m) c).trans ?_
    rw [Pipeline.ownSems0_none]; unfold Pipeline.ΦA
    iintro ⟨Hscoped, Hgen⟩
    isplitl [Hgen]; · iexact Hgen
    isplitr; · iempintro
    iexact Hscoped
  hexit c := by
    -- the arrays back among the bypassed buffers, at the next boundary's contents
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N)
      (fun w => (W2_arr m c w).symm)
      (fun b hb => W2_of_ne m c b fun w e => hb (Finset.mem_image.mpr ⟨w, Finset.mem_univ _, e⟩))
    rw [Pipeline.unscopedBufs_held] at hback
    iintro ⟨Harrs, Howe, Hgen, Hbypass⟩
    imodintro
    isplitl [Harrs Hbypass]
    · iapply hback; isplitl [Harrs] <;> iassumption
    isplitl [Hgen]; · iexact Hgen
    · -- the last tallies are nothing owed
      unfold Pipeline.Dat.owesAt Pipeline.owesWithin
      icases Howe with ⟨%W, -, Howe⟩
      iexists W; iexact Howe

set_option backward.isDefEq.respectTransparency.types false in
/-- REGION 1 as a segment: entered with every unscoped buffer at `W3`, left with them at `W4`. At entry the
    region's arrays are taken out of the unscoped buffers and the others bypass the region; the generator register
    joins the scoped buffers no window stages to make the class's invariant, which is the kernel's invariant before its
    first point; after its last point the kernel's invariant gives the class's back (the accumulator's contents
    forgotten), and the arrays at what the write-backs leave rejoin the bypassed buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(bufsAt (W3 m) c ∗ Side (F := F) c)
  post c := iprop(Tₙ m c ∗ owesNone (F := F) c)
  X c := genReg (F := F) c
  Y c := genReg (F := F) c
  Z c := Pipeline.unscopedRest (Ix := Unit) (Name := ℕ) (U := UR sig nD τ) (Lvl := ℕ) spec1 c (V3 m c)
  hentry c := by
    rw [Pipeline.ownSems0_none]
    -- the arrays out of the unscoped buffers
    have harr := Pipeline.arrays_of_unscopedBufs (p := 1) (pcfgs (F := F)) adm (pdats m) launch1.win launch1.arr_whole c
      ((pdats m 1 c).share_full fun _ => rfl) (V3 m c) fun _ => rfl
    rw [Pipeline.unscopedBufs_held] at harr
    iintro ⟨⟨Hbufs, Hgen, Howe⟩, -, -⟩
    ihave Hsplit := harr $$ Hbufs
    icases Hsplit with ⟨Harrs, Hbypass⟩
    imodintro
    isplitl [Harrs]; · iexact Harrs
    isplitr
    · -- the kernel prefetches no table
      unfold Pipeline.prefHeld
      rw [show (Finset.univ : Finset (Fin 0)) = ∅ from rfl, BI.bigSep_empty]; iempintro
    isplitl [Howe]
    · -- owing nothing is owing the first tallies, whatever was recorded
      unfold Pipeline.Dat.owesAt Pipeline.owesWithin
      icases Howe with ⟨%W, Howe⟩
      iexists W
      isplitr; · ipureintro; exact fun _ _ => Or.inl trivial
      iexact Howe
    isplitl [Hgen]; · iexact Hgen
    iexact Hbypass
  hin c := by
    refine BIBase.Entails.trans ?_ (hin1 (V3 m) c)
    unfold Pipeline.ΦA
    iintro ⟨Hgen, -, Hscoped⟩
    isplitl [Hscoped]; · iexact Hscoped
    iexact Hgen
  hout c := by
    refine (hout1 (V3 m) c).trans ?_
    rw [Pipeline.ownSems0_none]; unfold Pipeline.ΦA
    iintro ⟨Hscoped, Hgen⟩
    isplitl [Hgen]; · iexact Hgen
    isplitr; · iempintro
    iexact Hscoped
  hexit c := by
    -- the arrays back among the bypassed buffers, at the next boundary's contents
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N)
      (fun w => (W4_arr m c w).symm)
      (fun b hb => W4_of_ne m c b fun w e => hb (Finset.mem_image.mpr ⟨w, Finset.mem_univ _, e⟩))
    rw [Pipeline.unscopedBufs_held] at hback
    iintro ⟨Harrs, Howe, Hgen, Hbypass⟩
    imodintro
    isplitl [Harrs Hbypass Hgen]
    · isplitl [Harrs Hbypass]
      · iapply hback; isplitl [Harrs] <;> iassumption
      iexact Hgen
    · -- the last tallies are nothing owed
      unfold Pipeline.Dat.owesAt Pipeline.owesWithin
      icases Howe with ⟨%W, -, Howe⟩
      iexists W; iexact Howe

/-! ## @main as its segments, and the launch -/

/-- The four segments of @main in order: host stretch, region 0, host stretch, region 1. -/
abbrev mainSegs : List (Pipeline.Seg (pcfgs (F := F)) adm (pdats m) () defs₀ 𝒱₀ L lv) :=
  [.host (host0 m), .region (reg0 m), .host (host1 m), .region (reg1 m)]

/-- @main is the run of these segments. -/
theorem main_run (c : Dev nD) : main (F := F) c = Pipeline.Seg.run (mainSegs m) :=
  main_segs adm (pdats m) () 𝒱₀ L lv (host0 m) (host1 m) (reg0 m) (reg1 m) rfl rfl c

/-- The launch's ghost element is the pipeline library's own at the staging cells; no further ghost resource is made. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · rw [BI.bigSep_emp_const]; iempintro

/-- What the launch deals a core makes its first boundary state: the unscoped buffers at the launch contents, the
    generator register at its launch state, nothing owed and nothing recorded. -/
theorem launch_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ fun c : Dev nD => iprop(bufsAt (W0 m) c ∗ Side (F := F) c) := by
  refine Pipeline.initEach L lv fun c => ?_
  rw [show unscopedBufs c (fun b => m ((c : Thread nD τ).loc b)) = StableHlo.held (c : Thread nD τ) (Pipeline.ucRefs τ sig) (W0 m c)
    from Pipeline.unscopedBufs_held c (W0 m c)]
  iintro ⟨⟨Hbufs, -, Howe, -, Hgen, -⟩, -⟩
  imodintro
  isplitl [Hbufs]; · iexact Hbufs
  isplitl [Hgen]; · iexists _; iexact Hgen
  iexists ∅; iexact Howe

set_option backward.isDefEq.respectTransparency.types false in
/-- THE RUN. From any memory with zero counters every weakly fair execution of @main terminates, nothing faulting,
    with the result array at what region 1's write-backs leave and every argument array as launched. -/
theorem run_main : θ_run defs (onTc (τ := τ) (main (F := F))) ⟨m, fun _ => 0, ρ⟩ (fun r => ∀ c : Dev nD,
      r.2.mem ((c.tc : Thread nD τ).loc main_v14) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := launch_elem)
    (T₀ := fun c => iprop(bufsAt (W0 m) c ∗ Side (F := F) c)) (Tₙ := Tₙ m)
    (hch := ⟨fun _ => .rfl, fun _ => .rfl, fun _ => .rfl, fun _ => .rfl, fun _ => .rfl⟩)
    (hinit := launch_state m ρ)
    (QY := fun c s => ∀ b ∈ Pipeline.ucRefs τ sig, s.mem ((c : Thread nD τ).1, b) = W4 m c b)
    (hfin := fun c s' => by
      -- the buffers held beside a final state say what that state's memory holds at each
      iintro ⟨⟨Hbufs, -⟩, HSI⟩
      unfold bufsAt StableHlo.held
      imodintro
      iapply (pointsTo_read_all (Pipeline.ucRefs τ sig) (fun b => ((c : Thread nD τ).1, b)) (W4 m c) s')
      isplitl [Hbufs] <;> iassumption)
    (hQ := fun s h c =>
      ⟨(h c _ (mem_uc main_v14 (by decide))).trans (W4_result m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c)⟩)

end Cert.KernelIdeal.Hand

end
-- ==== Proof.Spec.lean ====
import Idealize.ShloMosaic.PureOps.Ideal
import Idealize.ShloMosaic.PureOps.Ideal.Laws
import Idealize.ShloMosaic.Lib.ValueIdx

noncomputable section

/-! # The gated recurrent cell, index by index

Over the extended reals, with `x` the inputs and `s` the states (both 4096 × 2048), each gate's weights a
4096 × 2048 matrix whose first 2048 rows multiply the inputs and whose last 2048 rows multiply the states, and
each bias a row of 2048:

  pre(w, b)[i, j] = Σₖ x[i, k] · w[k, j] + Σₖ s'[i, k] · w[2048 + k, j] + b[j]
  r = logistic(pre(w_r, b_r)),  z = logistic(pre(w_z, b_z))   (with s' = s)
  n = tanh(pre(w_n, b_n))                                      (with s' = s · r)
  out = (1 − z) · s + z · n.
-/

namespace Cert.GruSpec

open Idealize.ShloMosaic Idealize.ShloMosaic.ValueIdx

abbrev S42 : Shape := ⟨2, ![4096, 2048]⟩
abbrev S2 : Shape := ⟨1, ![2048]⟩
abbrev Mat := FVec Ideal S42 .f32
abbrev Row := FVec Ideal S2 .f32

/-- Row `k` of a weight matrix's upper half (it multiplies the inputs). -/
def lo (k : Fin 2048) : Fin 4096 := ⟨k.val, by omega⟩
/-- Row `2048 + k`: the lower half (it multiplies the states). -/
def hi (k : Fin 2048) : Fin 4096 := ⟨2048 + k.val, by omega⟩

/-- The literal `1.0` of both programs, kept as its word. -/
abbrev one32 : EReal := Ideal.ofBits .f32 0x3F800000#32

/-- A gate's pre-activation at `(i, j)`. -/
def pre (x s : Fin 4096 → Fin 2048 → EReal) (w : Mat) (b : Row) (i : Fin 4096) (j : Fin 2048) : EReal :=
  (∑ k : Fin 2048, x i k * w (ix2 (lo k) j)) + (∑ k : Fin 2048, s i k * w (ix2 (hi k) j)) + b (ix1 j)

/-- A logistic gate at `(i, j)`. -/
def gate (x s w : Mat) (b : Row) (i : Fin 4096) (j : Fin 2048) : EReal :=
  Ideal.logistic (pre (fun i k => x (ix2 i k)) (fun i k => s (ix2 i k)) w b i j)

/-- The candidate state at `(i, j)`: the states enter through the reset gate. -/
def cand (x s wr : Mat) (br : Row) (wn : Mat) (bn : Row) (i : Fin 4096) (j : Fin 2048) : EReal :=
  Ideal.tanh (pre (fun i k => x (ix2 i k)) (fun i k => s (ix2 i k) * gate x s wr br i k) wn bn i j)

/-- The new state at `(i, j)`. -/
def out (x s wr : Mat) (br : Row) (wz : Mat) (bz : Row) (wn : Mat) (bn : Row) (i : Fin 4096) (j : Fin 2048) : EReal :=
  (one32 - gate x s wz bz i j) * s (ix2 i j) + gate x s wz bz i j * cand x s wr br wn bn i j

/-- The cell as one function of the eight argument arrays. -/
def G (x s wr : Mat) (br : Row) (wz : Mat) (bz : Row) (wn : Mat) (bn : Row) : Mat :=
  fun idx => out x s wr br wz bz wn bn (idx 0) (idx 1)

theorem G_apply (x s wr : Mat) (br : Row) (wz : Mat) (bz : Row) (wn : Mat) (bn : Row) (i : Fin 4096) (j : Fin 2048) :
    G x s wr br wz bz wn bn (ix2 i j) = out x s wr br wz bz wn bn i j := rfl

/-- A sum over 4096 indices is the sum over the first 2048 plus the sum over the last 2048. -/
theorem sum_halves (f : Fin 4096 → EReal) : (∑ k : Fin 4096, f k) = (∑ k : Fin 2048, f (lo k)) + (∑ k : Fin 2048, f (hi k)) :=
  Fin.sum_univ_add (M := EReal) (a := 2048) (b := 2048) f

end Cert.GruSpec

end
-- ==== Proof.KI.Arrays.lean ====
import proofs.«107334_j11879879541673_1_alg».proof.Proof.KI.Data
import proofs.«107334_j11879879541673_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! # The arrays the two regions read and write, at their literal types (ideal values) -/

variable (V : (c : Dev nD) → (b : Ref sig .tc) → Buf (Elt Ideal) ((c : Thread nD τ).loc b))

/-- Region 0's operands: the concatenated input, the concatenated weights, the concatenated bias row. -/
abbrev r0X (c : Dev nD) : FVec Ideal S4096x4096 .bf16 := V c main_v1
abbrev r0W (c : Dev nD) : FVec Ideal S4096x4096 .bf16 := V c main_v3
abbrev r0B (c : Dev nD) : FVec Ideal S1x4096 .f32 := V c main_v5
/-- Region 0's result array after its last write-back. -/
abbrev r0Out (c : Dev nD) : FVec Ideal S4096x4096 .f32 := (dat0 (F := Ideal) V c).arrAt 3 cfg0.N

/-- Region 1's operands: the input, the candidate weights, their bias row, the states, the update gate. -/
abbrev r1X (c : Dev nD) : FVec Ideal S4096x4096 .bf16 := V c main_v11
abbrev r1W (c : Dev nD) : FVec Ideal S4096x2048 .bf16 := V c main_v12
abbrev r1B (c : Dev nD) : FVec Ideal S1x2048 .f32 := V c main_v13
abbrev r1S (c : Dev nD) : FVec Ideal S4096x2048 .f32 := V c main_arg1
abbrev r1Z (c : Dev nD) : FVec Ideal S4096x2048 .f32 := V c main_v8
/-- Region 1's result array after its last write-back. -/
abbrev r1Out (c : Dev nD) : FVec Ideal S4096x2048 .f32 := (dat1 (F := Ideal) V c).arrAt 5 cfg1.N

end Cert.KernelIdeal.Hand

end
-- ==== Proof.KI.R0Value.lean ====
import proofs.«107334_j11879879541673_1_alg».proof.Proof.KI.Arrays
import proofs.«107334_j11879879541673_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # Region 0's result array, entry by entry

Region 0 is a matrix product tiled over the grid [8, 2, 4] with the contraction axis innermost: point
t = (i·2 + j)·4 + k adds the product of block (i, k) of the input (512 × 1024) and block (k, j) of the weights
(1024 × 2048) into an accumulator that restarts from zero when k = 0, and when k = 3 writes the logistic of the
accumulator plus block (0, j) of the bias row back as block (i, j) of the result. Read at an entry, each step adds a
sum over 1024 contraction indices, so after the fourth step the accumulator's entry is the sum over all 4096 (a sum over
4 × 1024 indices re-associated; nothing is distributed, so no finiteness is used). The blocks written back tile the
result array, so every entry of it is the logistic of a row of the input times a column of the weights plus the bias. -/

namespace R0V

/-! ## The body's arithmetic at an entry -/

/-- The zero block the accumulator restarts from reads zero at every entry. -/
theorem pay1_apply (p : Fin 512) (q : Fin 2048) : (k0_pay1 (F := Ideal)) (ix2 p q) = 0 := by
  unfold k0_pay1
  rw [shapeCast_self]
  exact Ideal.ofBits_zero_f32

theorem lhs_mm0_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs_mm0_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_mm0_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_mm0_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The block product into the zero splat, at an entry: the plain sum over the block's 1024 contraction indices. -/
theorem mm0_apply (x : FVec Ideal S512x1024 .bf16) (w : FVec Ideal S1024x2048 .bf16) (p : Fin 512) (q : Fin 2048) :
    matmul dot_S512x1024_S1024x2048_S512x2048_1_0_0_1_n_n none x w (constant (F := Ideal) S512x2048 .f32 0x00000000#32) (ix2 p q)
      = ∑ k : Fin 1024, x (ix2 p k) * w (ix2 k q) := by
  simp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 p q) ((ValueIdx.contrEquiv1 dot_S512x1024_S1024x2048_S512x2048_1_0_0_1_n_n 1024 rfl rfl).symm k) = ix2 p k := funext fun a => Fin.ext (by
    match a with
    | ⟨0, _⟩ => exact lhs_mm0_0 _ _
    | ⟨1, _⟩ => exact (lhs_mm0_1 _ _).trans hk)
  have er : dot_S512x1024_S1024x2048_S512x2048_1_0_0_1_n_n.rhsIdx (ix2 p q) ((ValueIdx.contrEquiv1 dot_S512x1024_S1024x2048_S512x2048_1_0_0_1_n_n 1024 rfl rfl).symm k) = ix2 k q := funext fun a => Fin.ext (by
    match a with
    | ⟨0, _⟩ => exact (rhs_mm0_0 _ _).trans hk
    | ⟨1, _⟩ => exact rhs_mm0_1 _ _)
  rw [el, er]

/-- One accumulation step at an entry: what was there plus the block product's entry. -/
theorem pay2_apply (a : FVec Ideal S512x2048 .f32) (x : FVec Ideal S512x1024 .bf16) (w : FVec Ideal S1024x2048 .bf16)
    (p : Fin 512) (q : Fin 2048) :
    k0_pay2 (F := Ideal) a x w (ix2 p q) = a (ix2 p q) + ∑ k : Fin 1024, x (ix2 p k) * w (ix2 k q) := by
  unfold k0_pay2
  simp only [shapeCast_self]
  rw [addf_apply, mm0_apply]

/-- The epilogue at an entry: the logistic of the accumulator's entry plus the bias row's entry of that column. -/
theorem pay3_apply (a : FVec Ideal S512x2048 .f32) (b : FVec Ideal S1x2048 .f32) (p : Fin 512) (q : Fin 2048) :
    k0_pay3 (F := Ideal) a b (ix2 p q) = Ideal.logistic (a (ix2 p q) + b (ix2 (0 : Fin 1) q)) := by
  unfold k0_pay3
  simp only [shapeCast_self]
  show Ideal.logistic (addf a (broadcastTo S512x2048 b broadcasts_S1x2048_S512x2048) (ix2 p q)) = _
  rw [addf_apply, broadcastTo_1b_ab_apply]

/-! ## The blocks as parts of the arrays -/

/-- The printed index maps, decided once over the grid's 64 points: at point t = (i·2 + j)·4 + k the input's block is
    (i, k), the weights' (k, j), the bias row's (0, j), the result's (i, j). -/
theorem idx0 : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- The input block of point t read at (p, k) is the input array at row (t/8)·512 + p, column (t%4)·1024 + k. -/
theorem xblk0_apply (c : Dev nD) (t : Fin cfg0.N) (p : Fin 512) (k : Fin 1024) (i K : Fin 4096)
    (hi : i.val = t.val / 8 * 512 + p.val) (hK : K.val = t.val % 4 * 1024 + k.val) :
    xblk0 V c t (ix2 p k) = r0X V c (ix2 i K) := by
  obtain ⟨e0, e1, -⟩ := idx0 t
  show V c main_v1 (((cfg0.win 0).blk t).view.emb (ix2 p k)) = V c main_v1 (ix2 i K)
  refine congrArg _ (funext fun a => Fin.ext ?_)
  match a with
  | ⟨0, _⟩ => show win0_0.index t (0 : Fin 2) * 512 + 1 * p.val = i.val; rw [e0, hi]; omega
  | ⟨1, _⟩ => show win0_0.index t (1 : Fin 2) * 1024 + 1 * k.val = K.val; rw [e1, hK]; omega

/-- The weight block of point t read at (k, q) is the weight array at row (t%4)·1024 + k, column ((t/4)%2)·2048 + q. -/
theorem wblk0_apply (c : Dev nD) (t : Fin cfg0.N) (k : Fin 1024) (q : Fin 2048) (K j : Fin 4096)
    (hK : K.val = t.val % 4 * 1024 + k.val) (hj : j.val = t.val / 4 % 2 * 2048 + q.val) :
    wblk0 V c t (ix2 k q) = r0W V c (ix2 K j) := by
  obtain ⟨-, -, e0, e1, -⟩ := idx0 t
  show V c main_v3 (((cfg0.win 1).blk t).view.emb (ix2 k q)) = V c main_v3 (ix2 K j)
  refine congrArg _ (funext fun a => Fin.ext ?_)
  match a with
  | ⟨0, _⟩ => show win0_1.index t (0 : Fin 2) * 1024 + 1 * k.val = K.val; rw [e0, hK]; omega
  | ⟨1, _⟩ => show win0_1.index t (1 : Fin 2) * 2048 + 1 * q.val = j.val; rw [e1, hj]; omega

/-- The bias block of point t read at (0, q) is the bias row at column ((t/4)%2)·2048 + q. -/
theorem bblk0_apply (c : Dev nD) (t : Fin cfg0.N) (q : Fin 2048) (j : Fin 4096)
    (hj : j.val = t.val / 4 % 2 * 2048 + q.val) :
    bblk0 V c t (ix2 (0 : Fin 1) q) = r0B V c (ix2 (0 : Fin 1) j) := by
  obtain ⟨-, -, -, -, e0, e1, -⟩ := idx0 t
  show V c main_v5 (((cfg0.win 2).blk t).view.emb (ix2 (0 : Fin 1) q)) = V c main_v5 (ix2 (0 : Fin 1) j)
  refine congrArg _ (funext fun a => Fin.ext ?_)
  match a with
  | ⟨0, _⟩ => show win0_2.index t (0 : Fin 2) * 1 + 1 * 0 = 0; rw [e0]
  | ⟨1, _⟩ => show win0_2.index t (1 : Fin 2) * 2048 + 1 * q.val = j.val; rw [e1, hj]; omega

/-! ## The accumulator over a run of four points -/

/-- Global contraction index s·1024 + k of the k-th index of contraction block s (s read modulo 4). -/
def kIdx (s : ℕ) (k : Fin 1024) : Fin 4096 :=
  ⟨s % 4 * 1024 + k.val, by have := k.isLt; have := Nat.mod_lt s (show 0 < 4 by decide); omega⟩

/-- A sum over the 4096 contraction indices is the sum over the four blocks of the sums inside each block. -/
theorem sum_blocks (f : Fin 4096 → EReal) :
    ∑ s ∈ Finset.range 4, ∑ k : Fin 1024, f (kIdx s k) = ∑ K : Fin 4096, f K := by
  have e := Equiv.sum_comp (finProdFinEquiv (m := 4) (n := 1024)) (f : Fin (4 * 1024) → EReal)
  rw [Fintype.sum_prod_type] at e
  rw [Finset.sum_range]
  refine Eq.trans ?_ e
  refine Finset.sum_congr rfl fun s _ => Finset.sum_congr rfl fun k _ => congrArg f (Fin.ext ?_)
  show (s : ℕ) % 4 * 1024 + k.val = k.val + 1024 * s.val
  have := s.isLt
  omega

/-- THE ACCUMULATOR. At point 4·b + κ (κ < 4) of the run of output block b = (b/2, b%2), the accumulator's entry (p, q)
    is the sum, over the contraction blocks 0 … κ, of the products of row (b/2)·512 + p of the input and column
    (b%2)·2048 + q of the weights. Only sums are re-associated: nothing is distributed. -/
theorem acc0_val (c : Dev nD) (b : ℕ) : ∀ (κ : ℕ) (h : 4 * b + κ < cfg0.N), κ < 4 →
    ∀ (p : Fin 512) (q : Fin 2048) (i j : Fin 4096), i.val = b / 2 * 512 + p.val → j.val = b % 2 * 2048 + q.val →
      acc0 V c (4 * b + κ) h (ix2 p q)
        = ∑ s ∈ Finset.range (κ + 1), ∑ k : Fin 1024, r0X V c (ix2 i (kIdx s k)) * r0W V c (ix2 (kIdx s k) j)
  | 0, h, _, p, q, i, j, hi, hj => by
    refine (congrFun (acc0_reset V c (4 * b + 0) h (by omega)) (ix2 p q)).trans ?_
    refine (pay2_apply (k0_pay1 (F := Ideal)) (xblk0 V c ⟨4 * b + 0, h⟩) (wblk0 V c ⟨4 * b + 0, h⟩) p q).trans ?_
    rw [pay1_apply, zero_add, Finset.sum_range_one]
    refine Finset.sum_congr rfl fun k _ => ?_
    rw [xblk0_apply V c ⟨4 * b + 0, h⟩ p k i (kIdx 0 k) (by show i.val = (4 * b + 0) / 8 * 512 + p.val; omega)
        (by show 0 % 4 * 1024 + k.val = (4 * b + 0) % 4 * 1024 + k.val; omega),
      wblk0_apply V c ⟨4 * b + 0, h⟩ k q (kIdx 0 k) j (by show 0 % 4 * 1024 + k.val = (4 * b + 0) % 4 * 1024 + k.val; omega)
        (by show j.val = (4 * b + 0) / 4 % 2 * 2048 + q.val; omega)]
  | κ + 1, h, hκ, p, q, i, j, hi, hj => by
    have same : ∀ (u : ℕ) (hu : u < cfg0.N) (hv : 4 * b + κ < cfg0.N), u = 4 * b + κ → acc0 V c u hu = acc0 V c (4 * b + κ) hv :=
      fun u hu hv e => by subst e; rfl
    have hv : 4 * b + κ < cfg0.N := by omega
    refine (congrFun (acc0_step V c (4 * b + (κ + 1)) h (by omega)) (ix2 p q)).trans ?_
    rw [same _ _ hv (by omega)]
    refine (pay2_apply (acc0 V c (4 * b + κ) hv) (xblk0 V c ⟨4 * b + (κ + 1), h⟩) (wblk0 V c ⟨4 * b + (κ + 1), h⟩) p q).trans ?_
    rw [acc0_val c b κ hv (by omega) p q i j hi hj, Finset.sum_range_succ _ (κ + 1)]
    refine congrArg _ (Finset.sum_congr rfl fun k _ => ?_)
    rw [xblk0_apply V c ⟨4 * b + (κ + 1), h⟩ p k i (kIdx (κ + 1) k) (by show i.val = (4 * b + (κ + 1)) / 8 * 512 + p.val; omega)
        (by show (κ + 1) % 4 * 1024 + k.val = (4 * b + (κ + 1)) % 4 * 1024 + k.val; omega),
      wblk0_apply V c ⟨4 * b + (κ + 1), h⟩ k q (kIdx (κ + 1) k) j (by show (κ + 1) % 4 * 1024 + k.val = (4 * b + (κ + 1)) % 4 * 1024 + k.val; omega)
        (by show j.val = (4 * b + (κ + 1)) / 4 % 2 * 2048 + q.val; omega)]

/-! ## From the blocks to the array -/

/-- Region 0's result as a function of the row and the column: the logistic of the row of the input times the column of
    the weights, plus the bias row's entry of the column. -/
def gate0 (c : Dev nD) (i j : Fin 4096) : EReal :=
  Ideal.logistic ((∑ k : Fin 4096, r0X V c (ix2 i k) * r0W V c (ix2 k j)) + r0B V c (ix2 0 j))

/-- The same as the contents of the whole result array. -/
abbrev gateArr0 (c : Dev nD) : FVec Ideal S4096x4096 .f32 :=
  fun idx => gate0 V c ⟨(idx 0).val, idx2_lt0 idx⟩ ⟨(idx 1).val, idx2_lt1 idx⟩

/-- At a point t ≡ 3 (mod 4), the last of its output block's run, the epilogue's entry (p, q) is the result at row
    (t/8)·512 + p and column ((t/4)%2)·2048 + q: the accumulator there holds the sum over all four contraction blocks. -/
theorem epilogue0 (c : Dev nD) (t : Fin cfg0.N) (ht : t.val % 4 = 3) (p : Fin 512) (q : Fin 2048) (i j : Fin 4096)
    (hi : i.val = t.val / 8 * 512 + p.val) (hj : j.val = t.val / 4 % 2 * 2048 + q.val) :
    k0_pay3 (F := Ideal) (acc0 V c t.val t.isLt) (bblk0 V c t) (ix2 p q) = gate0 V c i j := by
  have hN : cfg0.N = 64 := N_0
  have hlt : t.val < 64 := hN ▸ t.isLt
  have hv : 4 * (t.val / 4) + 3 < cfg0.N := by omega
  have same : ∀ (u : ℕ) (hu : u < cfg0.N), u = 4 * (t.val / 4) + 3 → acc0 V c u hu = acc0 V c (4 * (t.val / 4) + 3) hv :=
    fun u hu e => by subst e; rfl
  refine (pay3_apply (acc0 V c t.val t.isLt) (bblk0 V c t) p q).trans ?_
  unfold gate0
  rw [bblk0_apply V c t q j hj, same t.val t.isLt (by omega),
    acc0_val V c (t.val / 4) 3 hv (by omega) p q i j (by omega) (by omega),
    sum_blocks fun K => r0X V c (ix2 i K) * r0W V c (ix2 K j)]

/-- WHAT A FLUSHING POINT WRITES BACK is its block of the result array: the block of point t sits at rows (t/8)·512 …
    and columns ((t/4)%2)·2048 …, and the point writes back only when t ≡ 3 (mod 4). -/
theorem flushed0_eq (c : Dev nD) (t : Fin cfg0.N) (hf : (cfg0.win 3).flush t = true) :
    (dat0 (F := Ideal) V c).flushed 3 t = ((cfg0.win 3).blk t).view.read (Elt Ideal) (gateArr0 V c) := by
  have ht : t.val % 4 = 3 := (flush0_3 t).mp hf
  obtain ⟨-, -, -, -, -, -, e0, e1⟩ := idx0 t
  show (cfg0.win 3).cut (grid0.coords t) ((dat0 (F := Ideal) V c).after 3 t) = _
  rw [after0_3]
  refine funext fun (y : S512x2048.Idx) => ?_
  obtain ⟨p, q, rfl⟩ : ∃ (p : Fin 512) (q : Fin 2048), y = ix2 p q := ⟨y 0, y 1, eq_ix2 y⟩
  show k0_pay3 (F := Ideal) (acc0 V c t.val t.isLt) (bblk0 V c t) (ix2 p q)
    = gateArr0 V c (((cfg0.win 3).blk t).view.emb (ix2 p q))
  refine epilogue0 V c t ht p q _ _ ?_ ?_
  · show win0_3.index t (0 : Fin 2) * 512 + 1 * p.val = t.val / 8 * 512 + p.val
    rw [e0]; omega
  · show win0_3.index t (1 : Fin 2) * 2048 + 1 * q.val = t.val / 4 % 2 * 2048 + q.val
    rw [e1]; omega

/-- An index of the result array is in point t's block iff each coordinate is in the block's range on its axis. -/
theorem mem_blk0 (t : Fin cfg0.N) (i : S4096x4096.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v6).slice (win0_3.rect t)).set ↔ _
  rw [View.set_slice_whole, Rect.mem_set_unit]
  exact Iff.rfl

/-- Every entry of the result array is written back: entry (r, s) by the last point of the run of block
    (r / 512, s / 2048), the point ((r/512)·2 + s/2048)·4 + 3. -/
theorem cover0 (i : S4096x4096.Idx) :
    ∃ t : Fin cfg0.N, (cfg0.win 3).flush t = true ∧ i ∈ ((cfg0.win 3).blk t).view.set := by
  have hN : cfg0.N = 64 := N_0
  have h0 : (i 0).val < 4096 := idx2_lt0 i
  have h1 : (i 1).val < 4096 := idx2_lt1 i
  obtain ⟨t, ht⟩ : ∃ t : Fin cfg0.N, t.val = ((i 0).val / 512 * 2 + (i 1).val / 2048) * 4 + 3 :=
    ⟨⟨((i 0).val / 512 * 2 + (i 1).val / 2048) * 4 + 3, by rw [hN]; omega⟩, rfl⟩
  obtain ⟨-, -, -, -, -, -, e0, e1⟩ := idx0 t
  refine ⟨t, (flush0_3 t).mpr (by omega), ?_⟩
  rw [mem_blk0]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 2048 ≤ (i 1).val ∧ (i 1).val < win0_3.index t (1 : Fin 2) * 2048 + 2048
    rw [e1]; omega

/-- So the result array ends holding that function. -/
theorem arr0_final (c : Dev nD) : r0Out V c = gateArr0 V c :=
  (dat0 (F := Ideal) V c).arrAt_eq_of_cover 3 (gateArr0 V c) (fun t hf => flushed0_eq V c t hf) cover0

end R0V

/-- REGION 0's RESULT ARRAY at the ideal values: entry `(i, j)` is the logistic of row `i` of the (concatenated) input
    times column `j` of the (concatenated) weights, plus the bias row's entry `j`. -/
theorem arr0_value (c : Dev nD) (i j : Fin 4096) :
    r0Out V c (ix2 i j) =
      Ideal.logistic ((∑ k : Fin 4096, r0X V c (ix2 i k) * r0W V c (ix2 k j)) + r0B V c (ix2 0 j)) := by
  rw [R0V.arr0_final V c]
  rfl

end Cert.KernelIdeal.Hand

end
-- ==== Proof.KI.R1Value.lean ====
import proofs.«107334_j11879879541673_1_alg».proof.Proof.KI.Arrays
import proofs.«107334_j11879879541673_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Mathlib.Algebra.BigOperators.Intervals
import Mathlib.Algebra.BigOperators.Fin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The payloads of region 1 read at an index -/

/-- The restart value of the accumulator is zero everywhere. -/
theorem k1_pay1_apply (j : S256x2048.Idx) : k1_pay1 (F := Ideal) j = 0 := by
  unfold k1_pay1
  rw [shapeCast_self]
  show Ideal.ofBits .f32 0x00000000#32 = 0
  exact Ideal.ofBits_zero_f32

/-- The matrix product's dimension record of region 1. -/
abbrev D1 := dot_S256x512_S512x2048_S256x2048_1_0_0_1_n_n

theorem lhs1_0 (i : S256x2048.Idx) (q : D1.contr.Idx) : (D1.lhsIdx i q 0).val = (i 0).val := by
  unfold DotDims.lhsIdx
  rw [dif_neg (show ¬(0 : Fin S256x512.rank) ∈ D1.lhsBatch by decide), dif_pos (show (0 : Fin S256x512.rank) ∈ D1.lhsNonContracting by decide)]
  rfl
theorem lhs1_1 (i : S256x2048.Idx) (q : D1.contr.Idx) : (D1.lhsIdx i q 1).val = (q ⟨0, by decide⟩).val :=
  D1.lhsIdx_val_of_single rfl i q
theorem rhs1_0 (i : S256x2048.Idx) (q : D1.contr.Idx) : (D1.rhsIdx i q 0).val = (q ⟨0, by decide⟩).val :=
  D1.rhsIdx_val_of_single rfl i q
theorem rhs1_1 (i : S256x2048.Idx) (q : D1.contr.Idx) : (D1.rhsIdx i q 1).val = (i 1).val := by
  unfold DotDims.rhsIdx
  rw [dif_neg (show ¬(1 : Fin S512x2048.rank) ∈ D1.rhsBatch by decide), dif_pos (show (1 : Fin S512x2048.rank) ∈ D1.rhsNonContracting by decide)]
  rfl

/-- One step of the accumulator at an entry: what was there plus the block product's entry, a sum over the
    block's 512 contraction indices. -/
theorem k1_pay2_apply (v3 : FVec Ideal S256x2048 .f32) (v4 : FVec Ideal S256x512 .bf16) (v6 : FVec Ideal S512x2048 .bf16)
    (p : Fin 256) (q : Fin 2048) :
    k1_pay2 (F := Ideal) v3 v4 v6 (ix2 p q) = v3 (ix2 p q) + ∑ k : Fin 512, v4 (ix2 p k) * v6 (ix2 k q) := by
  unfold k1_pay2
  rw [shapeCast_self, shapeCast_self, shapeCast_self, addf_apply]
  refine congrArg (v3 (ix2 p q) + ·) ?_
  simp only [matmul]
  rw [Ideal.matmul_constant_zero_apply, ← Equiv.sum_comp (ValueIdx.contrEquiv1 D1 512 rfl rfl).symm]
  refine Finset.sum_congr rfl fun k _ => ?_
  have hk := ValueIdx.contrEquiv1_symm_val D1 512 rfl rfl k
  have el : D1.lhsIdx (ix2 p q) ((ValueIdx.contrEquiv1 D1 512 rfl rfl).symm k) = ix2 p k := funext fun a => Fin.ext (by
    match a with
    | ⟨0, _⟩ => exact lhs1_0 _ _
    | ⟨1, _⟩ => exact (lhs1_1 _ _).trans hk)
  have er : D1.rhsIdx (ix2 p q) ((ValueIdx.contrEquiv1 D1 512 rfl rfl).symm k) = ix2 k q := funext fun a => Fin.ext (by
    match a with
    | ⟨0, _⟩ => exact (rhs1_0 _ _).trans hk
    | ⟨1, _⟩ => exact rhs1_1 _ _)
  rw [el, er]

/-- The value written back at an entry: the gate combination of the state and update-gate entries with the
    hyperbolic tangent of the accumulator's entry plus the bias row's entry. -/
theorem k1_pay3_apply (v16 : FVec Ideal S256x2048 .f32) (v17 : FVec Ideal S1x2048 .f32) (v22 v24 : FVec Ideal S256x2048 .f32)
    (p : Fin 256) (q : Fin 2048) :
    k1_pay3 (F := Ideal) v16 v17 v22 v24 (ix2 p q)
      = (Cert.GruSpec.one32 - v22 (ix2 p q)) * v24 (ix2 p q)
          + v22 (ix2 p q) * Ideal.tanh (v16 (ix2 p q) + v17 (ix2 0 q)) := by
  unfold k1_pay3
  rw [shapeCast_self, shapeCast_self]
  rw [addf_apply, mulf_apply, mulf_apply, subf_apply, broadcast_apply]
  have hb : broadcastTo S256x2048 v17 broadcasts_S1x2048_S256x2048 (ix2 p q) = v17 (ix2 0 q) :=
    broadcastTo_apply v17 broadcasts_S1x2048_S256x2048 (ix2 p q) (ix2 0 q) (fun a => by
      match a with
      | ⟨0, _⟩ => rfl
      | ⟨1, _⟩ => rfl)
  show (Cert.GruSpec.one32 - v22 (ix2 p q)) * v24 (ix2 p q) + v22 (ix2 p q) * Ideal.tanh (v16 (ix2 p q) + broadcastTo S256x2048 v17 broadcasts_S1x2048_S256x2048 (ix2 p q)) = _
  rw [hb]

variable (V : (c : Dev nD) → (b : Ref sig .tc) → Buf (Elt Ideal) ((c : Thread nD τ).loc b))

/-! ## Each input block read at an index of its array -/

/-- The printed index maps decided over the grid: point `t = i·8 + k` fetches block `(i, k)` of the input,
    block `(k, 0)` of the weights, block `(0, 0)` of the bias row, and block `(i, 0)` of the states, the update
    gate and the result. -/
theorem idx1 : ∀ t : Fin grid1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

/-- Entry `(p, q)` of the input block of point `t` is entry `(⌊t/8⌋·256 + p, (t mod 8)·512 + q)` of the input. -/
theorem xblk1_apply (c : Dev nD) (t : Fin cfg1.N) (p : Fin 256) (q : Fin 512) (i k : Fin 4096)
    (hi : i.val = t.val / 8 * 256 + p.val) (hk : k.val = t.val % 8 * 512 + q.val) :
    xblk1 V c t (ix2 p q) = r1X V c (ix2 i k) := by
  obtain ⟨e0, e1, -⟩ := idx1 t
  show V c main_v11 _ = V c main_v11 _
  congr 1
  funext a
  apply Fin.ext
  match a with
  | ⟨0, _⟩ => show win1_0.index t (0 : Fin 2) * 256 + 1 * p.val = i.val; rw [e0]; omega
  | ⟨1, _⟩ => show win1_0.index t (1 : Fin 2) * 512 + 1 * q.val = k.val; rw [e1]; omega

/-- Entry `(p, q)` of the weight block of point `t` is entry `((t mod 8)·512 + p, q)` of the weights. -/
theorem wblk1_apply (c : Dev nD) (t : Fin cfg1.N) (p : Fin 512) (q : Fin 2048) (k : Fin 4096)
    (hk : k.val = t.val % 8 * 512 + p.val) :
    wblk1 V c t (ix2 p q) = r1W V c (ix2 k q) := by
  obtain ⟨-, -, e0, e1, -⟩ := idx1 t
  show V c main_v12 _ = V c main_v12 _
  congr 1
  funext a
  apply Fin.ext
  match a with
  | ⟨0, _⟩ => show win1_1.index t (0 : Fin 2) * 512 + 1 * p.val = k.val; rw [e0]; omega
  | ⟨1, _⟩ => show win1_1.index t (1 : Fin 2) * 2048 + 1 * q.val = q.val; rw [e1]; omega

/-- The bias block of every point is the bias row. -/
theorem bblk1_apply (c : Dev nD) (t : Fin cfg1.N) (q : Fin 2048) :
    bblk1 V c t (ix2 0 q) = r1B V c (ix2 0 q) := by
  obtain ⟨-, -, -, -, e0, e1, -⟩ := idx1 t
  show V c main_v13 _ = V c main_v13 _
  congr 1
  funext a
  apply Fin.ext
  match a with
  | ⟨0, _⟩ => show win1_2.index t (0 : Fin 2) * 1 + 1 * 0 = 0; rw [e0]
  | ⟨1, _⟩ => show win1_2.index t (1 : Fin 2) * 2048 + 1 * q.val = q.val; rw [e1]; omega

/-- Entry `(p, q)` of the state block of point `t` is entry `(⌊t/8⌋·256 + p, q)` of the states. -/
theorem sblk1_apply (c : Dev nD) (t : Fin cfg1.N) (p : Fin 256) (q : Fin 2048) (i : Fin 4096)
    (hi : i.val = t.val / 8 * 256 + p.val) :
    sblk1 V c t (ix2 p q) = r1S V c (ix2 i q) := by
  obtain ⟨-, -, -, -, -, -, e0, e1, -⟩ := idx1 t
  show V c main_arg1 _ = V c main_arg1 _
  congr 1
  funext a
  apply Fin.ext
  match a with
  | ⟨0, _⟩ => show win1_3.index t (0 : Fin 2) * 256 + 1 * p.val = i.val; rw [e0]; omega
  | ⟨1, _⟩ => show win1_3.index t (1 : Fin 2) * 2048 + 1 * q.val = q.val; rw [e1]; omega

/-- Entry `(p, q)` of the update-gate block of point `t` is entry `(⌊t/8⌋·256 + p, q)` of the update gate. -/
theorem zblk1_apply (c : Dev nD) (t : Fin cfg1.N) (p : Fin 256) (q : Fin 2048) (i : Fin 4096)
    (hi : i.val = t.val / 8 * 256 + p.val) :
    zblk1 V c t (ix2 p q) = r1Z V c (ix2 i q) := by
  obtain ⟨-, -, -, -, -, -, -, -, e0, e1, -⟩ := idx1 t
  show V c main_v8 _ = V c main_v8 _
  congr 1
  funext a
  apply Fin.ext
  match a with
  | ⟨0, _⟩ => show win1_4.index t (0 : Fin 2) * 256 + 1 * p.val = i.val; rw [e0]; omega
  | ⟨1, _⟩ => show win1_4.index t (1 : Fin 2) * 2048 + 1 * q.val = q.val; rw [e1]; omega

/-! ## The accumulator: a running sum over the contraction indices -/

/-- The product of row `i` of the input and column `j` of the weights at contraction index `k`; zero past the end. -/
def term1 (c : Dev nD) (i : Fin 4096) (j : Fin 2048) (k : ℕ) : EReal :=
  if h : k < 4096 then r1X V c (ix2 i ⟨k, h⟩) * r1W V c (ix2 ⟨k, h⟩ j) else 0

/-- The block product of point `n = i·8 + m` at an entry is the sum of the 512 terms beginning at `m·512`. -/
theorem blockSum1 (c : Dev nD) (n : ℕ) (h : n < cfg1.N) (p : Fin 256) (q : Fin 2048) (i : Fin 4096)
    (hi : i.val = n / 8 * 256 + p.val) (m : ℕ) (hm : n % 8 = m) :
    (∑ k : Fin 512, xblk1 V c ⟨n, h⟩ (ix2 p k) * wblk1 V c ⟨n, h⟩ (ix2 k q))
      = ∑ k ∈ Finset.range 512, term1 V c i q (m * 512 + k) := by
  subst hm
  rw [Finset.sum_range]
  refine Finset.sum_congr rfl fun k _ => ?_
  have hk : n % 8 * 512 + k.val < 4096 := by have := k.isLt; omega
  unfold term1
  rw [dif_pos hk, xblk1_apply V c ⟨n, h⟩ p k i ⟨_, hk⟩ hi rfl, wblk1_apply V c ⟨n, h⟩ k q ⟨_, hk⟩ rfl]

/-- The step equation at a successor point that does not restart. -/
theorem acc1_succ (c : Dev nD) (n : ℕ) (h : n + 1 < cfg1.N) (h0 : ¬(n + 1) % 8 = 0) :
    acc1 V c (n + 1) h
      = k1_pay2 (acc1 V c n (Nat.lt_of_succ_lt h)) (xblk1 V c ⟨n + 1, h⟩) (wblk1 V c ⟨n + 1, h⟩) := by
  rw [acc1, if_neg h0]

/-- THE INVARIANT: after point `n = i·8 + κ` the accumulator's entry `(p, q)` is the sum of the terms of row
    `i·256 + p` and column `q` over the contraction indices below `(κ + 1)·512`. Only `+` is reassociated. -/
theorem acc1_apply (c : Dev nD) : ∀ (n : ℕ) (h : n < cfg1.N) (p : Fin 256) (q : Fin 2048) (i : Fin 4096),
    i.val = n / 8 * 256 + p.val →
    acc1 V c n h (ix2 p q) = ∑ k ∈ Finset.range ((n % 8 + 1) * 512), term1 V c i q k := by
  intro n
  induction n with
  | zero =>
    intro h p q i hi
    rw [acc1_reset V c 0 h rfl, k1_pay2_apply, k1_pay1_apply, zero_add, blockSum1 V c 0 h p q i hi 0 rfl]
    simp only [Nat.zero_mod, Nat.zero_mul, Nat.zero_add, Nat.one_mul]
  | succ n ih =>
    intro h p q i hi
    by_cases h0 : (n + 1) % 8 = 0
    · rw [acc1_reset V c (n + 1) h h0, k1_pay2_apply, k1_pay1_apply, zero_add, blockSum1 V c (n + 1) h p q i hi 0 h0, h0]
      simp only [Nat.zero_mul, Nat.zero_add, Nat.one_mul]
    · have hi' : i.val = n / 8 * 256 + p.val := by rw [hi]; omega
      have e1 : ((n + 1) % 8 + 1) * 512 = (n % 8 + 1) * 512 + 512 := by omega
      have e2 : (n + 1) % 8 * 512 = (n % 8 + 1) * 512 := by omega
      rw [acc1_succ V c n h h0, k1_pay2_apply, blockSum1 V c (n + 1) h p q i hi _ rfl,
        ih (Nat.lt_of_succ_lt h) p q i hi', e1, Finset.sum_range_add, e2]

/-! ## What the result array ends holding -/

/-- The right-hand side of the claim at `(i, j)`. -/
def out1 (c : Dev nD) (i : Fin 4096) (j : Fin 2048) : EReal :=
  (Cert.GruSpec.one32 - r1Z V c (ix2 i j)) * r1S V c (ix2 i j)
    + r1Z V c (ix2 i j) * Ideal.tanh ((∑ k : Fin 4096, r1X V c (ix2 i k) * r1W V c (ix2 k j)) + r1B V c (ix2 0 j))

/-- The same as one function of the whole array's indices. -/
def G1 (c : Dev nD) : FVec Ideal S4096x2048 .f32 := fun idx => out1 V c (idx 0) (idx 1)

theorem G1_apply (c : Dev nD) (i : Fin 4096) (j : Fin 2048) : G1 V c (ix2 i j) = out1 V c i j := rfl

/-- The terms below 4096 sum to the full contraction. -/
theorem sum_term1 (c : Dev nD) (i : Fin 4096) (j : Fin 2048) :
    (∑ k ∈ Finset.range 4096, term1 V c i j k) = ∑ k : Fin 4096, r1X V c (ix2 i k) * r1W V c (ix2 k j) := by
  rw [Finset.sum_range]
  refine Finset.sum_congr rfl fun k _ => ?_
  unfold term1
  rw [dif_pos k.isLt]

/-- WHAT A FLUSH POINT WRITES BACK: at `t = i·8 + 7` the accumulator holds the full contraction, so the block
    written is block `(i, 0)` of `G1`. -/
theorem flushed1_eq (c : Dev nD) (t : Fin cfg1.N) (hf : (cfg1.win 5).flush t = true) :
    (dat1 (F := Ideal) V c).flushed 5 t = ((cfg1.win 5).blk t).view.read (Elt Ideal) (G1 V c) := by
  have h7 : t.val % 8 = 7 := (flush1_5 t).mp hf
  have hN : cfg1.N = 128 := N_1
  have ht : t.val < 128 := hN ▸ t.isLt
  obtain ⟨-, -, -, -, -, -, -, -, -, -, e0, e1⟩ := idx1 t
  show (cfg1.win 5).cut (grid1.coords t) ((dat1 (F := Ideal) V c).after 5 t) = _
  rw [after1_5]
  funext j
  have hp : (j 0).val < 256 := (j 0).isLt
  have hq : (j 1).val < 2048 := (j 1).isLt
  have hrow : t.val / 8 * 256 + (j 0).val < 4096 := by omega
  have hx : (cfg1.win 5).xinj (grid1.coords t) j = ix2 (⟨(j 0).val, hp⟩ : Fin 256) (⟨(j 1).val, hq⟩ : Fin 2048) :=
    funext fun a => by
      match a with
      | ⟨0, _⟩ => rfl
      | ⟨1, _⟩ => rfl
  have he : ((cfg1.win 5).blk t).view.emb j
      = ix2 (⟨t.val / 8 * 256 + (j 0).val, hrow⟩ : Fin 4096) (⟨(j 1).val, hq⟩ : Fin 2048) :=
    funext fun a => Fin.ext (by
      match a with
      | ⟨0, _⟩ => show win1_5.index t (0 : Fin 2) * 256 + 1 * (j 0).val = t.val / 8 * 256 + (j 0).val; rw [e0]; omega
      | ⟨1, _⟩ => show win1_5.index t (1 : Fin 2) * 2048 + 1 * (j 1).val = (j 1).val; rw [e1]; omega)
  show k1_pay3 (acc1 V c t.val t.isLt) (bblk1 V c t) (zblk1 V c t) (sblk1 V c t) ((cfg1.win 5).xinj (grid1.coords t) j)
      = G1 V c (((cfg1.win 5).blk t).view.emb j)
  rw [hx, he, G1_apply, k1_pay3_apply]
  unfold out1
  rw [zblk1_apply V c t ⟨(j 0).val, hp⟩ ⟨(j 1).val, hq⟩ ⟨_, hrow⟩ rfl,
    sblk1_apply V c t ⟨(j 0).val, hp⟩ ⟨(j 1).val, hq⟩ ⟨_, hrow⟩ rfl, bblk1_apply V c t,
    acc1_apply V c t.val t.isLt ⟨(j 0).val, hp⟩ ⟨(j 1).val, hq⟩ ⟨_, hrow⟩ rfl, h7, sum_term1]

/-- Every index of the result array lies in the block some flush point writes: row block `i` is written at
    `t = i·8 + 7`. -/
theorem cover1 (idx : S4096x2048.Idx) :
    ∃ t : Fin cfg1.N, (cfg1.win 5).flush t = true ∧ idx ∈ ((cfg1.win 5).blk t).view.set := by
  have hN : cfg1.N = 128 := N_1
  have h0 : (idx 0).val < 4096 := (idx 0).isLt
  have h1 : (idx 1).val < 2048 := (idx 1).isLt
  have htl : (idx 0).val / 256 * 8 + 7 < cfg1.N := by rw [hN]; omega
  refine ⟨⟨(idx 0).val / 256 * 8 + 7, htl⟩, (flush1_5 _).mpr (by show ((idx 0).val / 256 * 8 + 7) % 8 = 7; omega), ?_⟩
  obtain ⟨-, -, -, -, -, -, -, -, -, -, e0, e1⟩ := idx1 ⟨(idx 0).val / 256 * 8 + 7, htl⟩
  show idx ∈ ((View.whole main_v14).slice (win1_5.rect ⟨(idx 0).val / 256 * 8 + 7, htl⟩)).set
  rw [View.set_slice_whole, Rect.mem_set_unit]
  intro a
  match a with
  | ⟨0, _⟩ =>
    show win1_5.index ⟨(idx 0).val / 256 * 8 + 7, htl⟩ (0 : Fin 2) * 256 ≤ (idx 0).val
      ∧ (idx 0).val < win1_5.index ⟨(idx 0).val / 256 * 8 + 7, htl⟩ (0 : Fin 2) * 256 + 256
    rw [e0]; show ((idx 0).val / 256 * 8 + 7) / 8 * 256 ≤ (idx 0).val ∧ (idx 0).val < ((idx 0).val / 256 * 8 + 7) / 8 * 256 + 256
    omega
  | ⟨1, _⟩ =>
    show win1_5.index ⟨(idx 0).val / 256 * 8 + 7, htl⟩ (1 : Fin 2) * 2048 ≤ (idx 1).val
      ∧ (idx 1).val < win1_5.index ⟨(idx 0).val / 256 * 8 + 7, htl⟩ (1 : Fin 2) * 2048 + 2048
    rw [e1]; omega

/-- The result array after the run is `G1`. -/
theorem r1Out_eq (c : Dev nD) : r1Out V c = G1 V c :=
  (dat1 (F := Ideal) V c).arrAt_eq_of_cover 5 (G1 V c) (fun t ht => flushed1_eq V c t ht) cover1

/-- REGION 1's RESULT ARRAY at the ideal values: entry `(i, j)` combines the state and the update gate there with the
    hyperbolic tangent of row `i` of the input times column `j` of the weights plus the bias row's entry `j`. -/
theorem arr1_value (c : Dev nD) (i : Fin 4096) (j : Fin 2048) :
    r1Out V c (ix2 i j) =
      (Cert.GruSpec.one32 - r1Z V c (ix2 i j)) * r1S V c (ix2 i j)
        + r1Z V c (ix2 i j) * Ideal.tanh ((∑ k : Fin 4096, r1X V c (ix2 i k) * r1W V c (ix2 k j)) + r1B V c (ix2 0 j)) := by
  rw [r1Out_eq V c, G1_apply]
  rfl

end Cert.KernelIdeal.Hand

end
-- ==== Proof.KI.Bridge.lean ====
import proofs.«107334_j11879879541673_1_alg».proof.Proof.KI.Fold
import proofs.«107334_j11879879541673_1_alg».proof.Proof.KI.R0Value
import proofs.«107334_j11879879541673_1_alg».proof.Proof.KI.R1Value
import proofs.«107334_j11879879541673_1_alg».proof.Proof.Spec
import proofs.«107334_j11879879541673_1_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! # The host-written arrays as their operations' terms -/

/-- The eight argument arrays at their literal types. -/
abbrev aX (c : Dev nD) : FVec Ideal S4096x2048 .f32 := m ((c.tc : Thread nD τ).loc main_arg0)
abbrev aS (c : Dev nD) : FVec Ideal S4096x2048 .f32 := m ((c.tc : Thread nD τ).loc main_arg1)
abbrev aWr (c : Dev nD) : FVec Ideal S4096x2048 .f32 := m ((c.tc : Thread nD τ).loc main_arg2)
abbrev aBr (c : Dev nD) : FVec Ideal S2048 .f32 := m ((c.tc : Thread nD τ).loc main_arg3)
abbrev aWz (c : Dev nD) : FVec Ideal S4096x2048 .f32 := m ((c.tc : Thread nD τ).loc main_arg4)
abbrev aBz (c : Dev nD) : FVec Ideal S2048 .f32 := m ((c.tc : Thread nD τ).loc main_arg5)
abbrev aWn (c : Dev nD) : FVec Ideal S4096x2048 .f32 := m ((c.tc : Thread nD τ).loc main_arg6)
abbrev aBn (c : Dev nD) : FVec Ideal S2048 .f32 := m ((c.tc : Thread nD τ).loc main_arg7)

/-- Region 0's input: the inputs and the states side by side. -/
theorem v1_X (c : Dev nD) :
    r0X (V1 m) c = truncf .bf16 (concatenate S4096x4096 1 [⟨S4096x2048, aX m c⟩, ⟨S4096x2048, aS m c⟩] concatenates_S4096x2048_S4096x2048_S4096x4096_d1) bitsLt_bf16_f32 := by
  show StableHlo.after hostOps0 (fun b => m (c, b)) (Proc.devRef .tc main_v1) = _
  after_results

/-- Region 0's weights: the reset gate's and the update gate's side by side. -/
theorem v1_W (c : Dev nD) :
    r0W (V1 m) c = truncf .bf16 (concatenate S4096x4096 1 [⟨S4096x2048, aWr m c⟩, ⟨S4096x2048, aWz m c⟩] concatenates_S4096x2048_S4096x2048_S4096x4096_d1) bitsLt_bf16_f32 := by
  show StableHlo.after hostOps0 (fun b => m (c, b)) (Proc.devRef .tc main_v3) = _
  after_results

/-- Region 0's bias row: the two gates' biases end to end, as one row. -/
theorem v1_B (c : Dev nD) :
    r0B (V1 m) c = shapeCast S1x4096 (concatenate S4096 0 [⟨S2048, aBr m c⟩, ⟨S2048, aBz m c⟩] concatenates_S2048_S2048_S4096_d0) shapeCasts_S4096_S1x4096 := by
  show StableHlo.after hostOps0 (fun b => m (c, b)) (Proc.devRef .tc main_v5) = _
  after_results
  rfl

/-! ## Region 1's entry -/

/-- Region 0 leaves its result in the array the second host stretch slices. -/
theorem w2_out (c : Dev nD) : (W2 m c (Proc.devRef .tc main_v6) : FVec Ideal S4096x4096 .f32) = r0Out (V1 m) c :=
  W2_arr m c 3

/-- No host operation of the first stretch and no write-back of region 0 touches an argument. -/
theorem w2_arg0 (c : Dev nD) : (W2 m c (Proc.devRef .tc main_arg0) : FVec Ideal S4096x2048 .f32) = aX m c :=
  (W2_of_ne m c main_arg0 (by decide)).trans (Gen.V1_of m c main_arg0 (by decide))
theorem w2_arg1 (c : Dev nD) : (W2 m c (Proc.devRef .tc main_arg1) : FVec Ideal S4096x2048 .f32) = aS m c :=
  (W2_of_ne m c main_arg1 (by decide)).trans (Gen.V1_of m c main_arg1 (by decide))
theorem w2_arg6 (c : Dev nD) : (W2 m c (Proc.devRef .tc main_arg6) : FVec Ideal S4096x2048 .f32) = aWn m c :=
  (W2_of_ne m c main_arg6 (by decide)).trans (Gen.V1_of m c main_arg6 (by decide))
theorem w2_arg7 (c : Dev nD) : (W2 m c (Proc.devRef .tc main_arg7) : FVec Ideal S2048 .f32) = aBn m c :=
  (W2_of_ne m c main_arg7 (by decide)).trans (Gen.V1_of m c main_arg7 (by decide))

/-- The reset gate: the left half of region 0's result. -/
abbrev rGate (c : Dev nD) : FVec Ideal S4096x2048 .f32 :=
  extractStridedSlice S4096x2048 ![0, 0] (r0Out (V1 m) c) slices_S4096x4096_S4096x2048_0_0

/-- Region 1's input: the inputs beside the states times the reset gate. -/
theorem v3_X (c : Dev nD) :
    r1X (V3 m) c = truncf .bf16 (concatenate S4096x4096 1 [⟨S4096x2048, aX m c⟩, ⟨S4096x2048, mulf (aS m c) (rGate m c)⟩] concatenates_S4096x2048_S4096x2048_S4096x4096_d1) bitsLt_bf16_f32 := by
  show StableHlo.after hostOps1 (W2 m c) (Proc.devRef .tc main_v11) = _
  after_results
  rw [w2_out, w2_arg0, w2_arg1]

/-- Region 1's weights: the candidate's. -/
theorem v3_W (c : Dev nD) : r1W (V3 m) c = truncf .bf16 (aWn m c) bitsLt_bf16_f32 := by
  show StableHlo.after hostOps1 (W2 m c) (Proc.devRef .tc main_v12) = _
  after_results
  rw [w2_arg6]

/-- Region 1's bias row: the candidate's bias as one row. -/
theorem v3_B (c : Dev nD) : r1B (V3 m) c = shapeCast S1x2048 (aBn m c) shapeCasts_S2048_S1x2048 := by
  show StableHlo.after hostOps1 (W2 m c) (Proc.devRef .tc main_v13) = _
  after_results
  rw [w2_arg7]
  rfl

/-- Region 1's states: the argument, untouched. -/
theorem v3_S (c : Dev nD) : r1S (V3 m) c = aS m c := by
  show StableHlo.after hostOps1 (W2 m c) (Proc.devRef .tc main_arg1) = _
  after_results
  rw [w2_arg1]

/-- The update gate: the right half of region 0's result. -/
theorem v3_Z (c : Dev nD) :
    r1Z (V3 m) c = extractStridedSlice S4096x2048 ![0, 2048] (r0Out (V1 m) c) slices_S4096x4096_S4096x2048_0_2048 := by
  show StableHlo.after hostOps1 (W2 m c) (Proc.devRef .tc main_v8) = _
  after_results
  rw [w2_out]

/-! # The layout operations read at an index -/

section Reads
variable {α : Type}
open Cert.GruSpec (lo hi)

/-- Two 4096 × 2048 arrays side by side: a column below 2048 reads the first, -/
theorem cat1_lo (x y : S4096x2048.Idx → α) (i : Fin 4096) (k : Fin 2048) :
    concatenate S4096x4096 1 [⟨S4096x2048, x⟩, ⟨S4096x2048, y⟩] concatenates_S4096x2048_S4096x2048_S4096x4096_d1 (ix2 i (lo k)) = x (ix2 i k) :=
  concatenate_pair_apply_left (t := S4096x4096) (s₁ := S4096x2048) (s₂ := S4096x2048) 1 x y _ _ rfl _
    (fun b => match b with | ⟨0, _⟩ => rfl | ⟨1, _⟩ => rfl)

/-- and a column from 2048 on reads the second, 2048 columns to the left. -/
theorem cat1_hi (x y : S4096x2048.Idx → α) (i : Fin 4096) (k : Fin 2048) :
    concatenate S4096x4096 1 [⟨S4096x2048, x⟩, ⟨S4096x2048, y⟩] concatenates_S4096x2048_S4096x2048_S4096x4096_d1 (ix2 i (hi k)) = y (ix2 i k) :=
  concatenate_pair_apply_right (t := S4096x4096) (s₁ := S4096x2048) (s₂ := S4096x2048) 1 x y _ _ rfl rfl _
    (fun b hb => match b with | ⟨0, _⟩ => rfl | ⟨1, _⟩ => absurd rfl hb)
    (by show k.val + 2048 = 2048 + k.val; omega)

/-- Two rows of 2048 end to end: a position below 2048 reads the first, -/
theorem cat0_lo (x y : S2048.Idx → α) (k : Fin 2048) :
    concatenate S4096 0 [⟨S2048, x⟩, ⟨S2048, y⟩] concatenates_S2048_S2048_S4096_d0 (ix1 (lo k)) = x (ix1 k) :=
  concatenate_pair_apply_left (t := S4096) (s₁ := S2048) (s₂ := S2048) 0 x y _ _ rfl _
    (fun b => match b with | ⟨0, _⟩ => rfl)

/-- and a position from 2048 on reads the second. -/
theorem cat0_hi (x y : S2048.Idx → α) (k : Fin 2048) :
    concatenate S4096 0 [⟨S2048, x⟩, ⟨S2048, y⟩] concatenates_S2048_S2048_S4096_d0 (ix1 (hi k)) = y (ix1 k) :=
  concatenate_pair_apply_right (t := S4096) (s₁ := S2048) (s₂ := S2048) 0 x y _ _ rfl rfl _
    (fun b hb => match b with | ⟨0, _⟩ => absurd rfl hb)
    (by show k.val + 2048 = 2048 + k.val; omega)

/-- A vector of 4096 seen as one row. -/
theorem row4096 (x : S4096.Idx → α) (j : Fin 4096) :
    shapeCast S1x4096 x shapeCasts_S4096_S1x4096 (ix2 0 j) = x (ix1 j) :=
  shapeCast_apply x _ _ _ (by
    rw [Shape.rowMajor_val_one, Shape.rowMajor_val_two]
    show j.val = 0 * 4096 + j.val
    omega)

/-- A vector of 2048 seen as one row. -/
theorem row2048 (x : S2048.Idx → α) (j : Fin 2048) :
    shapeCast S1x2048 x shapeCasts_S2048_S1x2048 (ix2 0 j) = x (ix1 j) :=
  shapeCast_apply x _ _ _ (by
    rw [Shape.rowMajor_val_one, Shape.rowMajor_val_two]
    show j.val = 0 * 2048 + j.val
    omega)

/-- The left half of a 4096 × 4096 array, -/
theorem left_apply (x : S4096x4096.Idx → α) (i : Fin 4096) (j : Fin 2048) :
    extractStridedSlice S4096x2048 ![0, 0] x slices_S4096x4096_S4096x2048_0_0 (ix2 i j) = x (ix2 i (lo j)) :=
  extractStridedSlice_apply ![0, 0] x _ _ _ (fun a => match a with
    | ⟨0, _⟩ => by show i.val = 0 + i.val; omega
    | ⟨1, _⟩ => by show j.val = 0 + j.val; omega)

/-- and its right half. -/
theorem right_apply (x : S4096x4096.Idx → α) (i : Fin 4096) (j : Fin 2048) :
    extractStridedSlice S4096x2048 ![0, 2048] x slices_S4096x4096_S4096x2048_0_2048 (ix2 i j) = x (ix2 i (hi j)) :=
  extractStridedSlice_apply ![0, 2048] x _ _ _ (fun a => match a with
    | ⟨0, _⟩ => by show i.val = 0 + i.val; omega
    | ⟨1, _⟩ => by show 2048 + j.val = 2048 + j.val; omega)

end Reads

/-! # Putting together -/

section Together
open Cert.GruSpec

/-- A sum over 4096 products plus a bias entry is a gate's pre-activation once the left factors' halves are the
    inputs' and the states' rows, the right factors the weight's column and the bias entry the bias's. -/
theorem pre_eq (x s : Fin 4096 → Fin 2048 → EReal) (w : Mat) (b : Row) (i : Fin 4096) (j : Fin 2048)
    (f g : Fin 4096 → EReal) (β : EReal)
    (hfl : ∀ k, f (lo k) = x i k) (hfh : ∀ k, f (hi k) = s i k) (hg : ∀ k, g k = w (ix2 k j)) (hβ : β = b (ix1 j)) :
    (∑ k : Fin 4096, f k * g k) + β = pre x s w b i j := by
  unfold pre
  rw [sum_halves]
  simp only [hfl, hfh, hg, hβ]

/-- Region 0's result, left half: the reset gate. -/
theorem r0_lo (c : Dev nD) (i : Fin 4096) (j : Fin 2048) :
    r0Out (V1 m) c (ix2 i (lo j)) = gate (aX m c) (aS m c) (aWr m c) (aBr m c) i j := by
  rw [arr0_value]
  unfold gate
  refine congrArg Ideal.logistic ?_
  refine pre_eq _ _ _ _ i j (fun k => r0X (V1 m) c (ix2 i k)) (fun k => r0W (V1 m) c (ix2 k (lo j))) _
    (fun k => ?_) (fun k => ?_) (fun k => ?_) ?_
  · exact (congrFun (v1_X m c) (ix2 i (lo k))).trans (cat1_lo _ _ i k)
  · exact (congrFun (v1_X m c) (ix2 i (hi k))).trans (cat1_hi _ _ i k)
  · exact (congrFun (v1_W m c) (ix2 k (lo j))).trans (cat1_lo _ _ k j)
  · exact (congrFun (v1_B m c) (ix2 0 (lo j))).trans ((row4096 _ (lo j)).trans (cat0_lo _ _ j))

/-- Region 0's result, right half: the update gate. -/
theorem r0_hi (c : Dev nD) (i : Fin 4096) (j : Fin 2048) :
    r0Out (V1 m) c (ix2 i (hi j)) = gate (aX m c) (aS m c) (aWz m c) (aBz m c) i j := by
  rw [arr0_value]
  unfold gate
  refine congrArg Ideal.logistic ?_
  refine pre_eq _ _ _ _ i j (fun k => r0X (V1 m) c (ix2 i k)) (fun k => r0W (V1 m) c (ix2 k (hi j))) _
    (fun k => ?_) (fun k => ?_) (fun k => ?_) ?_
  · exact (congrFun (v1_X m c) (ix2 i (lo k))).trans (cat1_lo _ _ i k)
  · exact (congrFun (v1_X m c) (ix2 i (hi k))).trans (cat1_hi _ _ i k)
  · exact (congrFun (v1_W m c) (ix2 k (hi j))).trans (cat1_hi _ _ k j)
  · exact (congrFun (v1_B m c) (ix2 0 (hi j))).trans ((row4096 _ (hi j)).trans (cat0_hi _ _ j))

end Together

/-- THE KERNEL'S RESULT at the ideal values is the cell's function of the eight argument arrays. -/
theorem result_value (c : Dev nD) :
    r1Out (V3 m) c =
      Cert.GruSpec.G (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  funext idx
  obtain ⟨i, j, rfl⟩ : ∃ (i : Fin 4096) (j : Fin 2048), idx = ix2 i j := ⟨idx 0, idx 1, eq_ix2 idx⟩
  rw [arr1_value, Cert.GruSpec.G_apply]
  unfold Cert.GruSpec.out
  -- the update gate and the states at (i, j)
  have hz : r1Z (V3 m) c (ix2 i j) = Cert.GruSpec.gate (aX m c) (aS m c) (aWz m c) (aBz m c) i j :=
    (congrFun (v3_Z m c) (ix2 i j)).trans ((right_apply _ i j).trans (r0_hi m c i j))
  have hs : r1S (V3 m) c (ix2 i j) = aS m c (ix2 i j) := congrFun (v3_S m c) (ix2 i j)
  -- the candidate's pre-activation at (i, j)
  have hn : (∑ k : Fin 4096, r1X (V3 m) c (ix2 i k) * r1W (V3 m) c (ix2 k j)) + r1B (V3 m) c (ix2 0 j)
      = Cert.GruSpec.pre (fun i k => aX m c (ix2 i k))
          (fun i k => aS m c (ix2 i k) * Cert.GruSpec.gate (aX m c) (aS m c) (aWr m c) (aBr m c) i k) (aWn m c) (aBn m c) i j := by
    refine pre_eq _ _ _ _ i j (fun k => r1X (V3 m) c (ix2 i k)) (fun k => r1W (V3 m) c (ix2 k j)) _
      (fun k => ?_) (fun k => ?_) (fun k => ?_) ?_
    · exact (congrFun (v3_X m c) (ix2 i (Cert.GruSpec.lo k))).trans (cat1_lo _ _ i k)
    · refine (congrFun (v3_X m c) (ix2 i (Cert.GruSpec.hi k))).trans ((cat1_hi _ _ i k).trans ?_)
      show aS m c (ix2 i k) * rGate m c (ix2 i k) = _
      rw [show rGate m c (ix2 i k) = r0Out (V1 m) c (ix2 i (Cert.GruSpec.lo k)) from left_apply _ i k, r0_lo]
    · exact congrFun (v3_W m c) (ix2 k j)
    · exact (congrFun (v3_B m c) (ix2 0 j)).trans (row2048 _ j)
  rw [hz, hs, hn]
  rfl

end Cert.KernelIdeal.Hand

end
-- ==== Proof.RefValue.lean ====
import proofs.«107334_j11879879541673_1_alg».proof.Proof.Gen.ReferenceIdeal.Run
import proofs.«107334_j11879879541673_1_alg».proof.Proof.Gen.ReferenceIdeal.Read
import proofs.«107334_j11879879541673_1_alg».proof.Proof.Spec

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.ReferenceIdeal.Read

/-! ## The literal

The word `0x3F800000` is the number one. -/

theorem one32_eq : Ideal.ofBits .f32 0x3F800000#32 = (1 : EReal) := by
  simp [Ideal.ofBits, Ideal.ieee, -EReal.coe_mul]; norm_num

/-! ## Index equations

Where each stage of a gate's pre-activation reads its operands, in coordinates. -/

theorem lidx1_eq (p : Fin 4096) (q k : Fin 2048) : lidx_main_v1 (ix2 p q) k = ix2 p k :=
  funext fun a => by match a with | ⟨0, _⟩ => rfl | ⟨1, _⟩ => rfl

theorem lidx3_eq (p : Fin 4096) (q k : Fin 2048) : lidx_main_v3 (ix2 p q) k = ix2 p k :=
  funext fun a => by match a with | ⟨0, _⟩ => rfl | ⟨1, _⟩ => rfl

theorem ridx1_eq (p : Fin 4096) (q k : Fin 2048) :
    idx_main_v0 (ridx_main_v1 (ix2 p q) k) = ix2 (Cert.GruSpec.lo k) q :=
  funext fun a => by match a with | ⟨0, _⟩ => rfl | ⟨1, _⟩ => rfl

theorem ridx3_eq (p : Fin 4096) (q k : Fin 2048) :
    idx_main_v2 (ridx_main_v3 (ix2 p q) k) = ix2 (Cert.GruSpec.hi k) q :=
  funext fun a => by match a with | ⟨0, _⟩ => rfl | ⟨1, _⟩ => rfl

theorem bidx_eq (p : Fin 4096) (q : Fin 2048) : idx_main_v5 (idx_main_v6 (ix2 p q)) = ix1 q :=
  funext fun a => by match a with | ⟨0, _⟩ => rfl

/-! ## One gate

The sum of the two products and the bias row is the specification's pre-activation; one over one plus the
exponential of its negation is the logistic function of it. -/

/-- A gate's pre-activation, for any inputs `a`, states `s`, weights `w` and bias `b`. -/
theorem pre_eq (a s w : FVec Ideal S4096x2048 .f32) (b : FVec Ideal S2048 .f32) (p : Fin 4096) (q : Fin 2048) :
    val_main_v7 (F := Ideal) a s w b (ix2 p q)
      = Cert.GruSpec.pre (fun i k => a (ix2 i k)) (fun i k => s (ix2 i k)) w b p q := by
  rw [val_main_v7_apply, val_main_v4_apply, val_main_v1_apply, val_main_v3_apply, val_main_v6_apply,
    val_main_v5_apply, bidx_eq]
  simp only [val_main_v0_apply, val_main_v2_apply, lidx1_eq, lidx3_eq, ridx1_eq, ridx3_eq, Ideal.addf_def]
  rfl

/-- The logistic gate. -/
theorem gate_eq (a s w : FVec Ideal S4096x2048 .f32) (b : FVec Ideal S2048 .f32) (p : Fin 4096) (q : Fin 2048) :
    val_main_v13 (F := Ideal) a s w b (ix2 p q) = Cert.GruSpec.gate a s w b p q := by
  rw [val_main_v13_apply, val_main_v12_apply, val_main_cst_0_apply, val_main_v11_apply, val_main_v10_apply,
    val_main_cst_apply, val_main_v9_apply, val_main_v8_apply, pre_eq]
  simp only [Ideal.hostDivf_def, Ideal.addf_def, Ideal.hostUnary_exp_def, Ideal.hostNegf_def, Ideal.negf_def,
    Ideal.ofBits_def, one32_eq]
  rfl

/-! ## The three gates are one program at different arguments -/

/-- The update gate is the reset gate's program at the update weights. -/
theorem v27_eq (a s w : FVec Ideal S4096x2048 .f32) (b : FVec Ideal S2048 .f32) :
    val_main_v27 (F := Ideal) a s w b = val_main_v13 (F := Ideal) a s w b := rfl

/-- The candidate's pre-activation is a gate's pre-activation whose states are the states times the reset gate. -/
theorem v36_eq (x0 x1 x2 : FVec Ideal S4096x2048 .f32) (x3 : FVec Ideal S2048 .f32)
    (x6 : FVec Ideal S4096x2048 .f32) (x7 : FVec Ideal S2048 .f32) :
    val_main_v36 (F := Ideal) x0 x1 x2 x3 x6 x7
      = val_main_v7 (F := Ideal) x0 (val_main_v30 (F := Ideal) x0 x1 x2 x3) x6 x7 := rfl

/-- The candidate state. -/
theorem cand_eq (x0 x1 x2 : FVec Ideal S4096x2048 .f32) (x3 : FVec Ideal S2048 .f32)
    (x6 : FVec Ideal S4096x2048 .f32) (x7 : FVec Ideal S2048 .f32) (p : Fin 4096) (q : Fin 2048) :
    val_main_v37 (F := Ideal) x0 x1 x2 x3 x6 x7 (ix2 p q) = Cert.GruSpec.cand x0 x1 x2 x3 x6 x7 p q := by
  rw [val_main_v37_apply, v36_eq, pre_eq, Ideal.hostUnary_tanh_def]
  have h : (fun (i : Fin 4096) (k : Fin 2048) => val_main_v30 (F := Ideal) x0 x1 x2 x3 (ix2 i k))
      = fun i k => x1 (ix2 i k) * Cert.GruSpec.gate x0 x1 x2 x3 i k := by
    funext i k
    rw [val_main_v30_apply, gate_eq, Ideal.mulf_def]
  rw [h]
  rfl

/-- THE REFERENCE'S RESULT, as the generated read-back names it, is the cell's function of the eight argument arrays. -/
theorem ref_is_G (x0 x1 x2 : FVec Ideal S4096x2048 .f32) (x3 : FVec Ideal S2048 .f32) (x4 : FVec Ideal S4096x2048 .f32) (x5 : FVec Ideal S2048 .f32)
    (x6 : FVec Ideal S4096x2048 .f32) (x7 : FVec Ideal S2048 .f32) :
    val_main_v42 (F := Ideal) x0 x1 x2 x3 x4 x5 x6 x7 = Cert.GruSpec.G x0 x1 x2 x3 x4 x5 x6 x7 := by
  funext i
  obtain ⟨p, q, rfl⟩ : ∃ (p : Fin 4096) (q : Fin 2048), i = ix2 p q := ⟨i 0, i 1, eq_ix2 i⟩
  rw [Cert.GruSpec.G_apply, val_main_v42_apply, val_main_v40_apply, val_main_v41_apply, val_main_v39_apply,
    val_main_v38_apply, val_main_cst_3_apply, cand_eq, v27_eq, gate_eq]
  simp only [Ideal.addf_def, Ideal.mulf_def, Ideal.subf_def, Ideal.ofBits_def]
  rfl

end Cert.ReferenceIdeal.Hand

end
-- ==== Proof.lean ====
/-
  The certificate of a gated recurrent cell computed by two tiled matrix-product kernels against its plain reference.

  The kernel program concatenates inputs and states (and the reset and update weights), runs one tiled product whose
  last contraction step applies the logistic function (both gates at once), multiplies the states by the reset gate,
  concatenates again and runs a second tiled product whose last step applies the hyperbolic tangent and the gate
  combination. The reference computes each gate from two products over the two halves of its weight matrix. Over the
  extended reals a product over the concatenation is the sum of the two products over the halves, a product accumulated
  block by block is the product, and the logistic function is one over one plus the exponential of the negation: both
  programs compute `Cert.GruSpec.G`. Only sums are regrouped (nothing is distributed or cancelled), so the precondition is
  not used.
-/
import proofs.«107334_j11879879541673_1_alg».proof.Defs
import proofs.«107334_j11879879541673_1_alg».proof.Proof.Gen.Kernel
import proofs.«107334_j11879879541673_1_alg».proof.Proof.Gen.KernelIdeal
import proofs.«107334_j11879879541673_1_alg».proof.Proof.Gen.ReferenceIdeal
import proofs.«107334_j11879879541673_1_alg».proof.Proof.Gen.Pre_finite_inputs
import proofs.«107334_j11879879541673_1_alg».proof.Proof.Gen.ReferenceIdeal.Run
import proofs.«107334_j11879879541673_1_alg».proof.Proof.Gen.ReferenceIdeal.Read
import proofs.«107334_j11879879541673_1_alg».proof.Proof.KB.Run
import proofs.«107334_j11879879541673_1_alg».proof.Proof.KI.Run
import proofs.«107334_j11879879541673_1_alg».proof.Proof.KI.Bridge
import proofs.«107334_j11879879541673_1_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the cell's function `G` of the arguments. -/
theorem algebraic : Cert.algebraic_KernelIdeal_ReferenceIdeal := by
  intro m ρ m' ρ' _ hagree
  refine ⟨fun c => Cert.GruSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.result_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.Hand.ref_is_G,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
